-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000 : Shape := ⟨1, ![320000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S320000 : S_.BroadcastsInDim S320000 (![] : Fin 0 → Fin S320000.rank)
  reducesTo_S320000_S_d0 : S320000.ReducesTo [0] S_

variable [Facts]

def fn_part1 {F : FTy → Type} [FloatOps F] (main_arg2 : IVec S320000 32) (main_v15 : IVec S_ 1) (main_c_5 : IVec S_ 32) : IVec S_ 1 :=
  let main_v16 : IVec S320000 32 := broadcastInDim S320000 ![] bcast_S_S320000 main_c_5
  let main_v17 : IVec S320000 1 := cmpi .sge main_arg2 main_v16
  let main_c_6 : IVec S_ 32 := constantI S_ 32 10000#32
  let main_v18 : IVec S320000 32 := broadcastInDim S320000 ![] bcast_S_S320000 main_c_6
  let main_v19 : IVec S320000 1 := cmpi .slt main_arg2 main_v18
  let main_v20 : IVec S320000 1 := andi main_v17 main_v19
  let main_c_7 : IVec S_ 1 := constantI S_ 1 1#1
  let main_v21 : IVec S_ 1 := (fun x v => Host.reduce IntOp.andi x v reducesTo_S320000_S_d0 h_S_) main_v20 main_c_7
  let main_v22 : IVec S_ 1 := andi main_v15 main_v21
  main_v22

def fn {F : FTy → Type} [FloatOps F] (main_arg0 : FVec F S10000x256 .f32) (main_arg1 : IVec S320000 32) (main_arg2 : IVec S320000 32) (main_arg3 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_c_2 : IVec S_ 32 := constantI S_ 32 0#32
  let main_v9 : IVec S320000 32 := broadcastInDim S320000 ![] bcast_S_S320000 main_c_2
  let main_v10 : IVec S320000 1 := cmpi .sge main_arg1 main_v9
  let main_c_3 : IVec S_ 32 := constantI S_ 32 10000#32
  let main_v11 : IVec S320000 32 := broadcastInDim S320000 ![] bcast_S_S320000 main_c_3
  let main_v12 : IVec S320000 1 := cmpi .slt main_arg1 main_v11
  let main_v13 : IVec S320000 1 := andi main_v10 main_v12
  let main_c_4 : IVec S_ 1 := constantI S_ 1 1#1
  let main_v14 : IVec S_ 1 := (fun x v => Host.reduce IntOp.andi x v reducesTo_S320000_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S10000x256 : Shape := ⟨2, ![10000, 256]⟩
abbrev S320000 : Shape := ⟨1, ![320000]⟩
abbrev S256x256 : Shape := ⟨2, ![256, 256]⟩
abbrev S_ : Shape := ⟨0, ![]⟩
abbrev S104857600 : Shape := ⟨1, ![104857600]⟩
abbrev S320000x1 : Shape := ⟨2, ![320000, 1]⟩
abbrev S10240x10240 : Shape := ⟨2, ![10240, 10240]⟩
abbrev S10240x256 : Shape := ⟨2, ![10240, 256]⟩
abbrev S1 : Shape := ⟨1, ![1]⟩
abbrev S1280x1280 : Shape := ⟨2, ![1280, 1280]⟩
abbrev S1280x256 : Shape := ⟨2, ![1280, 256]⟩

abbrev nBuf : Space → Nat
  | .hbm => 32
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S256x256, .f32⟩
  | .hbm, ⟨4, _⟩ => ⟨S_, .i32⟩
  | .hbm, ⟨5, _⟩ => ⟨S320000, .i32⟩
  | .hbm, ⟨6, _⟩ => ⟨S320000, .i32⟩
  | .hbm, ⟨7, _⟩ => ⟨S320000, .i32⟩
  | .hbm, ⟨8, _⟩ => ⟨S_, .f32⟩
  | .hbm, ⟨9, _⟩ => ⟨S104857600, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S_, .f32⟩
  | .hbm, ⟨19, _⟩ => ⟨S320000, .f32⟩
  | .hbm, ⟨20, _⟩ => ⟨S104857600, .f32⟩
  | .hbm, ⟨21, _⟩ => ⟨S10240x10240, .f32⟩
  | .hbm, ⟨22, _⟩ => ⟨S10240x10240, .bf16⟩
  | .hbm, ⟨23, _⟩ => ⟨S_, .f32⟩
  | .hbm, ⟨24, _⟩ => ⟨S10240x256, .f32⟩
  | .hbm, ⟨25, _⟩ => ⟨S_, .i32⟩
  | .hbm, ⟨26, _⟩ => ⟨S1, .i32⟩
  | .hbm, ⟨27, _⟩ => ⟨S10240x256, .f32⟩
  | .hbm, ⟨28, _⟩ => ⟨S10240x256, .bf16⟩
  | .hbm, ⟨29, _⟩ => ⟨S256x256, .bf16⟩
  | .hbm, ⟨30, _⟩ => ⟨S10240x256, .f32⟩
  | .hbm, ⟨31, _⟩ => ⟨S10000x256, .f32⟩
  | .local _ .vmem, ⟨0, _⟩ => ⟨S1280x1280, .bf16⟩
  | .local _ .vmem, ⟨1, _⟩ => ⟨S1280x1280, .bf16⟩
  | .local _ .vmem, ⟨2, _⟩ => ⟨S1280x256, .bf16⟩
  | .local _ .vmem, ⟨3, _⟩ => ⟨S1280x256, .bf16⟩
  | .local _ .vmem, ⟨4, _⟩ => ⟨S1280x256, .f32⟩
  | .local _ .vmem, ⟨5, _⟩ => ⟨S1280x256, .f32⟩
  | .local _ .vmem, ⟨6, _⟩ => ⟨S256x256, .bf16⟩
  | .local _ .vmem, ⟨7, _⟩ => ⟨S1280x256, .f32⟩
  | .local _ .vmem, ⟨8, _⟩ => ⟨S1280x256, .f32⟩
  | .local _ .vmem, ⟨9, _⟩ => ⟨S1280x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1280x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S320000 : S_.BroadcastsInDim S320000 (![] : Fin 0 → Fin S320000.rank)
  bcast_S_S104857600 : S_.BroadcastsInDim S104857600 (![] : Fin 0 → Fin S104857600.rank)
  bcast_S320000_S320000x1_0 : S320000.BroadcastsInDim S320000x1 (![0] : Fin 1 → Fin S320000x1.rank)
  shapeCasts_S104857600_S10240x10240 : S104857600.ShapeCasts S10240x10240
  bitsLt_bf16_f32 : FTy.bits .bf16 < FTy.bits .f32
  bcast_S_S10240x256 : S_.BroadcastsInDim S10240x256 (![] : Fin 0 → Fin S10240x256.rank)
  bcast_S_S1 : S_.BroadcastsInDim S1 (![] : Fin 0 → Fin S1.rank)
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S10240x256_S10000x256_0_0 : S10240x256.Slices ![0, 0] S10000x256
  scatter_S104857600_S320000x1_S320000_n_0_0_1_wf : ScatterDims.WF S104857600 S320000x1 S320000 [] [0] [0] 1
  scatter_S10240x256_S1_S10000x256_01_n_0_0_wf : ScatterDims.WF S10240x256 S1 S10000x256 [0, 1] [] [0] 0
  dot_S1280x1280_S1280x256_S1280x256_1_0_0_1_n_n_wf : DotDims.WF S1280x1280 S1280x256 S1280x256 [1] [0] [0] [1] [] []
  dot_S1280x256_S256x256_S1280x256_1_0_0_1_n_n_wf : DotDims.WF S1280x256 S256x256 S1280x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1280.size a ≤ S10240x10240.size a
  hwx0_0 : ∀ i : grid0.Coords, EltTy.bits .bf16 = 32 ∨ (Rect.block (s := S10240x10240) S1280x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S10240x256.size a
  hwx0_1 : ∀ i : grid0.Coords, EltTy.bits .bf16 = 32 ∨ (Rect.block (s := S10240x256) S1280x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S10240x256.size a
  hwx0_2 : ∀ i : grid0.Coords, EltTy.bits .f32 = 32 ∨ (Rect.block (s := S10240x256) S1280x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x256.size a ≤ S10240x256.size a
  hwx0_4 : ∀ i : grid0.Coords, EltTy.bits .f32 = 32 ∨ (Rect.block (s := S10240x256) S1280x256.size (cc0_transform_4 i) (hinb0_4 i)).WholeWords (EltTy.packing .f32)

variable [Facts₀]

def scatter_S104857600_S320000x1_S320000_n_0_0_1 : ScatterDims S104857600 S320000x1 S320000 where
  updateWindowDims := []
  insertedWindowDims := [0]
  scatterDimsToOperandDims := [0]
  indexVectorDim := 1
  wf := scatter_S104857600_S320000x1_S320000_n_0_0_1_wf
def scatter_S10240x256_S1_S10000x256_01_n_0_0 : ScatterDims S10240x256 S1 S10000x256 where
  updateWindowDims := [0, 1]
  insertedWindowDims := []
  scatterDimsToOperandDims := [0]
  indexVectorDim := 0
  wf := scatter_S10240x256_S1_S10000x256_01_n_0_0_wf
def dot_S1280x1280_S1280x256_S1280x256_1_0_0_1_n_n : DotDims S1280x1280 S1280x256 S1280x256 where
  lhsContracting := [1]
  rhsContracting := [0]
  lhsNonContracting := [0]
  rhsNonContracting := [1]
  lhsBatch := []
  rhsBatch := []
  wf := dot_S1280x1280_S1280x256_S1280x256_1_0_0_1_n_n_wf
def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf

abbrev win0_0 : Pipeline.Window sig grid0 :=
  Pipeline.Window.ofSpec (Memref.whole main_v13) S1280x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1280x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1280x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x256 : Shape := ⟨2, ![10000, 256]⟩
abbrev S320000 : Shape := ⟨1, ![320000]⟩
abbrev S256x256 : Shape := ⟨2, ![256, 256]⟩
abbrev S_ : Shape := ⟨0, ![]⟩
abbrev S320000x1 : Shape := ⟨2, ![320000, 1]⟩
abbrev S320000x256 : Shape := ⟨2, ![320000, 256]⟩

abbrev nBuf : Space → Nat
  | .hbm => 22
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S256x256, .f32⟩
  | .hbm, ⟨4, _⟩ => ⟨S_, .i32⟩
  | .hbm, ⟨5, _⟩ => ⟨S320000, .i32⟩
  | .hbm, ⟨6, _⟩ => ⟨S320000, .i1⟩
  | .hbm, ⟨7, _⟩ => ⟨S_, .i32⟩
  | .hbm, ⟨8, _⟩ => ⟨S320000, .i32⟩
  | .hbm, ⟨9, _⟩ => ⟨S320000, .i32⟩
  | .hbm, ⟨10, _⟩ => ⟨S320000, .i32⟩
  | .hbm, ⟨11, _⟩ => ⟨S320000x1, .i32⟩
  | .hbm, ⟨12, _⟩ => ⟨S320000x256, .f32⟩
  | .hbm, ⟨13, _⟩ => ⟨S_, .f32⟩
  | .hbm, ⟨14, _⟩ => ⟨S10000x256, .f32⟩
  | .hbm, ⟨15, _⟩ => ⟨S320000x1, .i32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S10000x256, .f32⟩
  | .hbm, ⟨21, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.PreRanges.lean ====
/-
  The index ranges the precondition states, read back. The printed predicate is a conjunction of four
  all-reductions: two about the float inputs (not used here) and, for each of the two index inputs, the
  statement that every word w has 0 ≤ w and w < 10000, both compared signed. A conjunction of one-bit
  words that is 1 has every conjunct 1; an all-reduction by `and` from the constant 1 that is 1 met only
  1s; and a signed comparison word that is 1 is the inequality of the operands' signed values. The
  broadcast of a rank-0 constant reads that constant at every index.
-/
import proofs.«417977_j15444702396461_1_alg».proof.Pre_finite_inputs
import proofs.«417977_j15444702396461_1_alg».proof.Proof.Gen.Pre_finite_inputs
import Idealize.ShloMosaic.Lib.ReduceAll
import Idealize.ShloMosaic.Lib.ValueIdx
import Idealize.ShloMosaic.Lib.IdealHost

noncomputable section

namespace Cert.Gin
open Idealize.ShloMosaic Idealize.ShloMosaic.ValueIdx

/-- The scalar shape has one index. -/
private instance subsingleton_scalar_idx : Subsingleton Cert.Pre_finite_inputs.S_.Idx :=
  ⟨fun a b => funext fun d => d.elim0⟩

/-- One word: both signed comparisons true means the signed value lies in [0, 10000). -/
private theorem word_range (x : BitVec 32)
    (h : IntOp.andi (IntOp.cmpi .sge x (0#32)) (IntOp.cmpi .slt x (10000#32)) = 1#1) :
    0 ≤ x.toInt ∧ x.toInt < 10000 := by
  obtain ⟨h0, h1⟩ := IntOp.andi_eq_one.1 h
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  exact ⟨h0, h1⟩

theorem ranges_of_pre {F : FTy → Type} [FloatOps F]
    (feat : FVec F Cert.Pre_finite_inputs.S10000x256 .f32) (src dst : IVec Cert.Pre_finite_inputs.S320000 32)
    (w : FVec F Cert.Pre_finite_inputs.S256x256 .f32)
    (h : Cert.Pre_finite_inputs.fn (F := F) feat src dst w = fun _ => 1#1) :
    (∀ e : Fin 320000, 0 ≤ (src (ix1 e)).toInt ∧ (src (ix1 e)).toInt < 10000)
    ∧ (∀ e : Fin 320000, 0 ≤ (dst (ix1 e)).toInt ∧ (dst (ix1 e)).toInt < 10000) := by
  have e := congrFun h ix0
  unfold Cert.Pre_finite_inputs.fn Cert.Pre_finite_inputs.fn_part1 at e
  dsimp only at e
  -- the outer conjunction: ((floats ∧ floats) ∧ all(src in range)) ∧ all(dst in range)
  obtain ⟨e1, hd⟩ := IntOp.andi_eq_one.1 e
  obtain ⟨-, hs⟩ := IntOp.andi_eq_one.1 e1
  refine ⟨fun i => ?_, fun i => ?_⟩
  · exact word_range _ (Host.reduce_andi_all _ _ _ _ _ hs (ix1 i))
  · exact word_range _ (Host.reduce_andi_all _ _ _ _ _ hd (ix1 i))

end Cert.Gin

end
-- ==== Proof.Spec.lean ====
/-
  What both programs compute, as one function of the argument arrays.

  A graph-isomorphism layer over 10000 nodes with 256 features and 320000 edges: node r collects the feature rows of the
  sources of the edges into r, adds 1.1 times its own row, and the combined row is multiplied by a 256 x 256 weight
  matrix. With the edge list read as positions (edge e goes from node sIdx e to node dIdx e) the result at (r, o) is

      sum over k of (c * feat (r, k) + sum over the edges e into r of feat (sIdx e, k)) * W (k, o),

  c the exact value of the single-precision literal nearest 1.1. Everything is an extended real; no finiteness is used.
-/
import Idealize.ShloMosaic.PureOps.Ideal
import Idealize.ShloMosaic.Lib.ValueIdx
import Idealize.ShloMosaic.Lib.ValueIdxRank1

noncomputable section

namespace Cert.Gin

open Idealize.ShloMosaic Idealize.ShloMosaic.ValueIdx
open scoped BigOperators

/-- The node features, [10000, 256]. -/
abbrev SN : Shape := ⟨2, ![10000, 256]⟩
/-- An edge endpoint list, [320000]. -/
abbrev SE : Shape := ⟨1, ![320000]⟩
/-- The weight matrix, [256, 256]. -/
abbrev SW : Shape := ⟨2, ![256, 256]⟩

/-- The neighbour sum: the feature k of the sources of the edges into node r, added up. -/
def agg (feat : SN.Idx → EReal) (sIdx dIdx : Fin 320000 → Fin 10000) (r : Fin 10000) (k : Fin 256) : EReal :=
  ∑ e : Fin 320000, if dIdx e = r then feat (ix2 (sIdx e) k) else 0

/-- The combined row: c times the node's own feature plus its neighbour sum. -/
def comb (feat : SN.Idx → EReal) (sIdx dIdx : Fin 320000 → Fin 10000) (r : Fin 10000) (k : Fin 256) : EReal :=
  Ideal.ofBits .f32 0x3F8CCCCD#32 * feat (ix2 r k) + agg feat sIdx dIdx r k

/-- The layer's result: the combined rows against the weight matrix. -/
def G (feat : SN.Idx → EReal) (sIdx dIdx : Fin 320000 → Fin 10000) (W : SW.Idx → EReal) : SN.Idx → EReal :=
  fun i => ∑ k : Fin 256, comb feat sIdx dIdx (i 0) k * W (ix2 k (i 1))

/-- An endpoint list whose words, read signed, lie in [0, 10000) names a node per edge. -/
def nodeOf (x : IVec SE 32) (h : ∀ e : Fin 320000, 0 ≤ (x (ix1 e)).toInt ∧ (x (ix1 e)).toInt < 10000) :
    Fin 320000 → Fin 10000 :=
  fun e => ⟨(x (ix1 e)).toInt.toNat, by have := h e; omega⟩

/-- The word of edge e, read signed, is the node's number. -/
theorem nodeOf_spec (x : IVec SE 32) (h : ∀ e : Fin 320000, 0 ≤ (x (ix1 e)).toInt ∧ (x (ix1 e)).toInt < 10000)
    (e : Fin 320000) : (x (ix1 e)).toInt = ((nodeOf x h e).val : Int) := by
  have := h e
  show _ = (((x (ix1 e)).toInt.toNat : Nat) : Int)
  omega

end Cert.Gin

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.LibAdjacency.lean ====
/-
  The algebra that joins a dense normalized adjacency matrix to the edge list it was scattered from.

  A graph convolution sums, into each node i, the features of the sources of the edges into i, each scaled by the
  edge's weight. One program does it edge by edge: gather the source rows, scale, scatter-add into the destination
  rows. Another first scatters the weights into a dense matrix A, A (i, j) the sum of the weights of the edges from
  j to i, and then multiplies A against the features. With nonnegative weights the two agree at the exact
  (extended-real) values whatever the features are, infinite ones included: multiplication distributes over a sum of
  nonnegative terms, 0 times anything is 0, and addition is commutative and associative, so the double sum over
  (node, edge) regroups by fibres.

  Here: that identity over finite index types; the host's accumulating scatters (of scalars at pairs of positions,
  of scalars at positions, of rows at positions) and gathers (of rows, of scalars) read at an index, also in the form
  they take when every position names an entry of its operand; and the signs: degrees, their inverse square roots
  and the edge weights are nonnegative.
-/
import Idealize.ShloMosaic.PureOps.Ideal
import Idealize.ShloMosaic.Lib.ValueIdx
import Idealize.ShloMosaic.Lib.ValueIdxRank1
import proofs.«417977_j15444702396461_1_alg».proof.Proof.LibScatterAdd
import proofs.«417977_j15444702396461_1_alg».proof.Proof.LibGatherRows
import Mathlib.Data.EReal.Operations
import Mathlib.Algebra.Order.BigOperators.Group.Finset

noncomputable section

namespace Cert.Lib

open Idealize.ShloMosaic Idealize.ShloMosaic.ValueIdx
open scoped BigOperators

/-! ## Sums of nonnegative extended reals against a factor -/

/-- A finite sum of nonnegative extended reals times a factor is the sum of the products: multiplication
    distributes over the sum of two nonnegative terms whatever the factor, and the partial sums stay nonnegative. -/
theorem sum_mul_of_nonneg {ι : Type*} (s : Finset ι) (f : ι → EReal) (hf : ∀ e ∈ s, 0 ≤ f e) (c : EReal) :
    (∑ e ∈ s, f e) * c = ∑ e ∈ s, f e * c := by
  classical
  induction s using Finset.induction_on with
  | empty => simp
  | insert a s ha ih =>
    rw [Finset.sum_insert ha, Finset.sum_insert ha,
      EReal.right_distrib_of_nonneg (hf a (Finset.mem_insert_self a s))
        (Finset.sum_nonneg (fun e he => hf e (Finset.mem_insert_of_mem he))),
      ih (fun e he => hf e (Finset.mem_insert_of_mem he))]

/-- THE DENSE MATRIX AGAINST A VECTOR IS THE EDGE SUM. Row i of the matrix whose entry (i, j) collects the
    nonnegative weights of the edges from j to i, against a vector h, is the sum over the edges into i of h at the
    edge's source times the edge's weight. The vector's entries are arbitrary extended reals. -/
theorem adj_matvec {E N : Nat} (w : Fin E → EReal) (hw : ∀ e, 0 ≤ w e) (sIdx dIdx : Fin E → Fin N)
    (h : Fin N → EReal) (i : Fin N) :
    ∑ j : Fin N, (∑ e : Fin E, if dIdx e = i ∧ sIdx e = j then w e else 0) * h j
      = ∑ e : Fin E, if dIdx e = i then h (sIdx e) * w e else 0 := by
  have h1 : ∀ j : Fin N, (∑ e : Fin E, if dIdx e = i ∧ sIdx e = j then w e else 0) * h j
      = ∑ e : Fin E, if dIdx e = i ∧ sIdx e = j then w e * h j else 0 := by
    intro j
    rw [sum_mul_of_nonneg _ _ (fun e _ => by split_ifs; exacts [hw e, le_rfl])]
    refine Finset.sum_congr rfl (fun e _ => ?_)
    split_ifs
    · rfl
    · exact zero_mul _
  rw [Finset.sum_congr rfl (fun j _ => h1 j), Finset.sum_comm]
  refine Finset.sum_congr rfl (fun e _ => ?_)
  by_cases hd : dIdx e = i
  · simp only [hd, true_and, if_true]
    rw [Finset.sum_ite_eq]
    simp only [Finset.mem_univ, if_true]
    exact mul_comm _ _
  · simp only [hd, false_and, if_false]
    exact Finset.sum_const_zero

/-- The same with both accumulations started from zero, as a scatter into a zero array reads. -/
theorem adj_matvec_zero_add {E N : Nat} (w : Fin E → EReal) (hw : ∀ e, 0 ≤ w e) (sIdx dIdx : Fin E → Fin N)
    (h : Fin N → EReal) (i : Fin N) :
    ∑ j : Fin N, (0 + ∑ e : Fin E, if dIdx e = i ∧ sIdx e = j then w e else 0) * h j
      = 0 + ∑ e : Fin E, if dIdx e = i then h (sIdx e) * w e else 0 := by
  simp only [zero_add]
  exact adj_matvec w hw sIdx dIdx h i

/-- The same over the fibres written as filtered sums. -/
theorem adj_matvec_filter {E N : Nat} (w : Fin E → EReal) (hw : ∀ e, 0 ≤ w e) (sIdx dIdx : Fin E → Fin N)
    (h : Fin N → EReal) (i : Fin N) :
    ∑ j : Fin N, (∑ e ∈ Finset.univ.filter (fun e => dIdx e = i ∧ sIdx e = j), w e) * h j
      = ∑ e ∈ Finset.univ.filter (fun e => dIdx e = i), h (sIdx e) * w e := by
  simp only [Finset.sum_filter]
  exact adj_matvec w hw sIdx dIdx h i

/-! ## A scatter of scalars at pairs of positions: operand [N, M], positions [E, 2], updates [E] -/

/-- The dimension numbers of a scatter of scalars into a matrix: operand [N, M], start indices [E, 2] (column 0 the
    row, column 1 the column), updates [E]; both operand axes inserted and named by the map. -/
abbrev pairScatterDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- On operand axis 0 the window of update j starts at column 0 of position j's index row, read signed. -/
theorem pair_start0 {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) :
    (pairScatterDims N M E wf).start j idx (0 : Fin 2) = (idx (ix2 (j (0 : Fin 1)) (0 : Fin 2))).toInt := by
  unfold ScatterDims.start
  rw [dif_pos (show (0 : Fin 2) ∈ (pairScatterDims N M E wf).scatterDimsToOperandDims from by simp)]
  have hsi : (pairScatterDims N M E wf).siIdx j ⟨List.idxOf (0 : Fin 2) (pairScatterDims N M E wf).scatterDimsToOperandDims,
      List.idxOf_lt_length_iff.2 (by simp)⟩ = ix2 (j (0 : Fin 1)) (0 : Fin 2) := by
    funext b; refine Fin.ext ?_
    match b with
    | ⟨0, _⟩ => rfl
    | ⟨1, _⟩ => rfl
  rw [hsi]
  rfl

/-- On operand axis 1 it starts at column 1 of the index row. -/
theorem pair_start1 {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) :
    (pairScatterDims N M E wf).start j idx (1 : Fin 2) = (idx (ix2 (j (0 : Fin 1)) (1 : Fin 2))).toInt := by
  unfold ScatterDims.start
  rw [dif_pos (show (1 : Fin 2) ∈ (pairScatterDims N M E wf).scatterDimsToOperandDims from by simp)]
  have hsi : (pairScatterDims N M E wf).siIdx j ⟨List.idxOf (1 : Fin 2) (pairScatterDims N M E wf).scatterDimsToOperandDims,
      List.idxOf_lt_length_iff.2 (by simp)⟩ = ix2 (j (0 : Fin 1)) (1 : Fin 2) := by
    funext b; refine Fin.ext ?_
    match b with
    | ⟨0, _⟩ => rfl
    | ⟨1, _⟩ => rfl
  rw [hsi]
  rfl

/-- Both operand axes are inserted: the window coordinate is 0 on each. -/
theorem pair_window {N M E : Nat} (wf : ScatterDims.WF ⟨2, ![N, M]⟩ ⟨2, ![E, 2]⟩ ⟨1, ![E]⟩ [] [0, 1] [0, 1] 1)
    (j : (⟨1, ![E]⟩ : Shape).Idx) (a : Fin 2) :
    (pairScatterDims N M E wf).window j a = 0 := by
  unfold ScatterDims.window
  rw [dif_neg]
  intro h
  match a with
  | ⟨0, _⟩ => simp [ScatterDims.sKept, Shape.kept] at h
  | ⟨1, _⟩ => simp [ScatterDims.sKept, Shape.kept] at h

/-- Update j lands on entry (r, c) exactly when its index row, read signed, is (r, c). -/
theorem pair_resultIdx {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) (r : Fin N) (c : Fin M) :
    (pairScatterDims N M E wf).resultIdx? j idx = some (ix2 r c)
      ↔ (idx (ix2 (j (0 : Fin 1)) (0 : Fin 2))).toInt = (r.val : Int)
        ∧ (idx (ix2 (j (0 : Fin 1)) (1 : Fin 2))).toInt = (c.val : Int) := by
  have hs0 := pair_start0 wf j idx
  have hs1 := pair_start1 wf j idx
  have hw0 := pair_window wf j (0 : Fin 2)
  have hw1 := pair_window wf j (1 : Fin 2)
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      have hc1 := hc (1 : Fin 2)
      simp only [hs0, hw0] at h0 hc0
      simp only [hs1, hw1] at h1 hc1
      change ((idx (ix2 (j (0 : Fin 1)) (0 : Fin 2))).toInt + ((0 : Nat) : Int)).toNat = r.val at h0
      change ((idx (ix2 (j (0 : Fin 1)) (1 : Fin 2))).toInt + ((0 : Nat) : Int)).toNat = c.val at h1
      exact ⟨by omega, by omega⟩
    · exact absurd h (by simp)
  · rintro ⟨h, hcol⟩
    have hc : ∀ a : Fin 2, 0 ≤ (pairScatterDims N M E wf).start j idx a + (pairScatterDims N M E wf).window j a ∧
        (pairScatterDims N M E wf).start j idx a + (pairScatterDims N M E wf).window j a < (⟨2, ![N, M]⟩ : Shape).size a := by
      intro a
      match a with
      | ⟨0, _⟩ =>
        show 0 ≤ (pairScatterDims N M E wf).start j idx (0 : Fin 2) + (pairScatterDims N M E wf).window j (0 : Fin 2) ∧
          (pairScatterDims N M E wf).start j idx (0 : Fin 2) + (pairScatterDims N M E wf).window j (0 : Fin 2) < (N : Int)
        rw [hs0, hw0, h]
        have := r.isLt
        omega
      | ⟨1, _⟩ =>
        show 0 ≤ (pairScatterDims N M E wf).start j idx (1 : Fin 2) + (pairScatterDims N M E wf).window j (1 : Fin 2) ∧
          (pairScatterDims N M E wf).start j idx (1 : Fin 2) + (pairScatterDims N M E wf).window j (1 : Fin 2) < (M : Int)
        rw [hs1, hw1, hcol]
        have := c.isLt
        omega
    rw [dif_pos hc]
    congr 1
    funext a
    refine Fin.ext ?_
    match a with
    | ⟨0, _⟩ =>
      show ((pairScatterDims N M E wf).start j idx (0 : Fin 2) + (pairScatterDims N M E wf).window j (0 : Fin 2)).toNat = r.val
      rw [hs0, hw0, h]
      omega
    | ⟨1, _⟩ =>
      show ((pairScatterDims N M E wf).start j idx (1 : Fin 2) + (pairScatterDims N M E wf).window j (1 : Fin 2)).toNat = c.val
      rw [hs1, hw1, hcol]
      omega

/-- THE PAIR SCATTER READ AT (r, c): the operand's entry plus the updates whose index row reads exactly (r, c). -/
theorem scatterAdd_pair_apply {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (r : Fin N) (c : Fin M) :
    Ideal.hostScatterAdd (pairScatterDims N M E wf) x idx upd (ix2 r c)
      = x (ix2 r c) + ∑ e : Fin E, if (idx (ix2 e (0 : Fin 2))).toInt = (r.val : Int) ∧ (idx (ix2 e (1 : Fin 2))).toInt = (c.val : Int)
          then upd (ix1 e) else 0 := by
  unfold Ideal.hostScatterAdd
  congr 1
  rw [Finset.sum_filter, ← Equiv.sum_comp (idxEquiv1 (n := E)).symm]
  refine Finset.sum_congr rfl (fun e _ => ?_)
  show (if (pairScatterDims N M E wf).resultIdx? (ix1 e) idx = some (ix2 r c) then upd (ix1 e) else 0) = _
  by_cases h : (idx (ix2 e (0 : Fin 2))).toInt = (r.val : Int) ∧ (idx (ix2 e (1 : Fin 2))).toInt = (c.val : Int)
  · rw [if_pos h, if_pos ((pair_resultIdx wf (ix1 e) idx r c).mpr h)]
  · rw [if_neg h, if_neg (fun h' => h ((pair_resultIdx wf (ix1 e) idx r c).mp h'))]

/-- The same when every index row names an entry of the operand: position e's row is (dIdx e, sIdx e). -/
theorem scatterAdd_pair_apply_fin {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (dIdx : Fin E → Fin N) (sIdx : Fin E → Fin M)
    (hd : ∀ e, (idx (ix2 e (0 : Fin 2))).toInt = ((dIdx e).val : Int))
    (hs : ∀ e, (idx (ix2 e (1 : Fin 2))).toInt = ((sIdx e).val : Int))
    (r : Fin N) (c : Fin M) :
    Ideal.hostScatterAdd (pairScatterDims N M E wf) x idx upd (ix2 r c)
      = x (ix2 r c) + ∑ e : Fin E, if dIdx e = r ∧ sIdx e = c then upd (ix1 e) else 0 := by
  rw [scatterAdd_pair_apply]
  congr 1
  refine Finset.sum_congr rfl (fun e _ => ?_)
  rw [hd e, hs e]
  simp only [Nat.cast_inj, Fin.val_inj]

/-! ## Reads when every position names an entry of the operand -/

/-- The row scatter read at (r, o) when position e names row dIdx e. -/
theorem scatterAdd_rows_apply_fin {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (dIdx : Fin E → Fin N) (hd : ∀ e, (idx (ix2 e (0 : Fin 1))).toInt = ((dIdx e).val : Int))
    (r : Fin N) (o : Fin C) :
    Ideal.hostScatterAdd (rowScatterDims N C E wf) x idx upd (ix2 r o)
      = x (ix2 r o) + ∑ e : Fin E, if dIdx e = r then upd (ix2 e o) else 0 := by
  rw [scatterAdd_rows_apply]
  congr 1
  refine Finset.sum_congr rfl (fun e _ => ?_)
  rw [hd e]
  simp only [Nat.cast_inj, Fin.val_inj]

/-- The vector scatter read at r when position e names entry dIdx e. -/
theorem scatterAdd_vec_apply_fin {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (dIdx : Fin E → Fin N) (hd : ∀ e, (idx (ix2 e (0 : Fin 1))).toInt = ((dIdx e).val : Int)) (r : Fin N) :
    Ideal.hostScatterAdd (vecScatterDims N E wf) x idx upd (ix1 r)
      = x (ix1 r) + ∑ e : Fin E, if dIdx e = r then upd (ix1 e) else 0 := by
  rw [scatterAdd_vec_apply]
  congr 1
  refine Finset.sum_congr rfl (fun e _ => ?_)
  rw [hd e]
  simp only [Nat.cast_inj, Fin.val_inj]

/-- The row gather read at (e, o) when position e names row sIdx e: the clamp does nothing. -/
theorem gather_rows_apply_fin {α : Type} {N C E w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w)
    (sIdx : Fin E → Fin N) (hs : ∀ e, (idx (ix2 e (0 : Fin 1))).toInt = ((sIdx e).val : Int)) (e : Fin E) (o : Fin C) :
    Host.gather (rowGatherDims N C E wf) x idx (ix2 e o) = x (ix2 (sIdx e) o) := by
  have hN : 0 < N := Nat.lt_of_le_of_lt (Nat.zero_le _) (sIdx e).isLt
  rw [gather_rows_apply hN]
  congr 2
  refine Fin.ext ?_
  show min (idx (ix2 e (0 : Fin 1))).toInt.toNat (N - 1) = (sIdx e).val
  rw [hs e]
  have := (sIdx e).isLt
  omega

/-! ## A gather of scalars from a vector: operand [N], positions [E, 1], result [E] -/

/-- The dimension numbers of a gather of scalars from a vector: operand [N], start indices [E, 1], result [E]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at position e's start index read signed and clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The vector gather read at e when position e names entry sIdx e: the clamp does nothing. -/
theorem gather_vec_apply_fin {α : Type} {N E w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w)
    (sIdx : Fin E → Fin N) (hs : ∀ e, (idx (ix2 e (0 : Fin 1))).toInt = ((sIdx e).val : Int)) (e : Fin E) :
    Host.gather (vecGatherDims N E wf) x idx (ix1 e) = x (ix1 (sIdx e)) := by
  have hN : 0 < N := Nat.lt_of_le_of_lt (Nat.zero_le _) (sIdx e).isLt
  rw [gather_vec_apply hN]
  congr 2
  refine Fin.ext ?_
  show min (idx (ix2 e (0 : Fin 1))).toInt.toNat (N - 1) = (sIdx e).val
  rw [hs e]
  have := (sIdx e).isLt
  omega

/-! ## Signs: degrees, their inverse square roots, and the edge weights -/

/-- The exact inverse square root of a nonnegative extended real is nonnegative (it is ⊤ at 0 and 0 at ⊤). -/
theorem rsqrt_nonneg {x : EReal} (hx : 0 ≤ x) : 0 ≤ Ideal.rsqrt x := by
  induction x using EReal.rec with
  | bot => exact absurd hx (by simp)
  | top => simp
  | coe r =>
    have hr : 0 ≤ r := by exact_mod_cast hx
    rw [Ideal.rsqrt_coe, if_neg (not_lt.mpr hr)]
    split_ifs
    · exact le_top
    · exact_mod_cast inv_nonneg.mpr (Real.sqrt_nonneg r)

/-- A product of two such roots is nonnegative. -/
theorem rsqrt_mul_rsqrt_nonneg {x y : EReal} (hx : 0 ≤ x) (hy : 0 ≤ y) : 0 ≤ Ideal.rsqrt x * Ideal.rsqrt y :=
  mul_nonneg (rsqrt_nonneg hx) (rsqrt_nonneg hy)

/-- A sum of nonnegative terms over a condition, started from zero, is nonnegative. -/
theorem zero_add_sum_ite_nonneg {ι : Type*} [Fintype ι] (P : ι → Prop) [DecidablePred P] (f : ι → EReal)
    (hf : ∀ e, 0 ≤ f e) : (0 : EReal) ≤ 0 + ∑ e : ι, if P e then f e else 0 := by
  rw [zero_add]
  exact Finset.sum_nonneg (fun e _ => by split_ifs; exacts [hf e, le_rfl])

/-- An accumulating scatter of nonnegative updates into a nonnegative operand is nonnegative at every entry,
    whatever its dimension numbers and positions. -/
theorem hostScatterAdd_nonneg {s si su : Shape} (d : ScatterDims s si su) {w : Nat} (x : s.Idx → EReal)
    (hx : ∀ i, 0 ≤ x i) (idx : IVec si w) (upd : su.Idx → EReal) (hu : ∀ j, 0 ≤ upd j) (i : s.Idx) :
    0 ≤ Ideal.hostScatterAdd d x idx upd i := by
  unfold Ideal.hostScatterAdd
  exact add_nonneg (hx i) (Finset.sum_nonneg (fun j _ => hu j))

/-- A gather only reads entries of its operand: of a nonnegative operand it is nonnegative. -/
theorem gather_nonneg {s si t : Shape} (d : GatherDims s si t) {w : Nat} (x : s.Idx → EReal) (hx : ∀ i, 0 ≤ x i)
    (idx : IVec si w) (j : t.Idx) : 0 ≤ Host.gather d x idx j := by
  unfold Host.gather
  exact hx _

/-- THE EDGE WEIGHTS ARE NONNEGATIVE. With the degrees an accumulating scatter of nonnegative updates into a
    nonnegative array, the weight of an edge, the product of the inverse square roots of two gathered degrees, is
    nonnegative: whatever the dimension numbers and whatever the positions scattered to and gathered from. -/
theorem norm_nonneg {s si su gi t : Shape} {w w' : Nat} (sd : ScatterDims s si su) (gd : GatherDims s gi t)
    (x : s.Idx → EReal) (hx : ∀ i, 0 ≤ x i) (didx : IVec si w) (upd : su.Idx → EReal) (hu : ∀ j, 0 ≤ upd j)
    (i1 i2 : IVec gi w') (j : t.Idx) :
    0 ≤ Host.gather gd (fun r => Ideal.rsqrt (Ideal.hostScatterAdd sd x didx upd r)) i1 j
        * Host.gather gd (fun r => Ideal.rsqrt (Ideal.hostScatterAdd sd x didx upd r)) i2 j :=
  mul_nonneg
    (gather_nonneg gd _ (fun r => rsqrt_nonneg (hostScatterAdd_nonneg sd x hx didx upd hu r)) i1 j)
    (gather_nonneg gd _ (fun r => rsqrt_nonneg (hostScatterAdd_nonneg sd x hx didx upd hu r)) i2 j)

/-- The same over the host operations as a program prints them, at the exact instance: the degrees
    `Host.scatterAdd`, their roots `Host.rsqrt`, the two gathers and the product `mulf`. -/
theorem norm_nonneg_printed {φ : FTy} {s si su gi t : Shape} {w w' : Nat} (sd : ScatterDims s si su) (gd : GatherDims s gi t)
    (x : FVec Ideal s φ) (hx : ∀ i, (0 : EReal) ≤ x i) (didx : IVec si w) (upd : FVec Ideal su φ) (hu : ∀ j, (0 : EReal) ≤ upd j)
    (i1 i2 : IVec gi w') (j : t.Idx) :
    (0 : EReal) ≤ mulf (Host.gather gd (Host.rsqrt (Host.scatterAdd sd x didx upd)) i1)
        (Host.gather gd (Host.rsqrt (Host.scatterAdd sd x didx upd)) i2) j :=
  norm_nonneg sd gd x hx didx upd hu i1 i2 j

end Cert.Lib

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.LibPairHead.lean ====
/-
  Two facts about a pairwise scoring head, at the exact-arithmetic instance.

  1. Index normalisation. jnp's x[idx] first replaces a negative index i by i + n; on an array of non-negative
     indices that replacement is the identity.

  2. Two spellings of one score. For gathered rows A, B of shape [P, 128], a weight column w of shape [128, 1] and
     a bias b of shape [1]:
       sigmoid (sum over k of (A * B)[p, k] * w[k, 0] + b[0])
     written as an elementwise product with the broadcast weight row followed by a sum over the last axis, over
     [P]; and written as the matrix product (A * B) · w plus the broadcast bias over [P, 1], then reshaped to [P].
     Both are the same number at every p: the row sum starts from 0 and adds exactly the terms of the matrix
     product's contraction, and everything after the sum is applied entry by entry.
     The sigmoid is the printed 1 / (1 + exp (-x)).
-/
import Idealize.ShloMosaic.PureOps.Ideal.Laws
import Idealize.ShloMosaic.Lib.ValueIdx
import Idealize.ShloMosaic.Lib.IdealHost
import Idealize.ShloMosaic.Lib.Pipeline.Value
import Idealize.ShloMosaic.Lib.Affine
import proofs.«417977_j15444702396461_1_alg».proof.Proof.LibRowTile

open scoped BigOperators

namespace Cert.Lib

open Idealize.ShloMosaic Idealize.ShloMosaic.ValueIdx

/-- jnp's replacement of a negative index i by i + n is the identity on an array of non-negative indices. -/
theorem select_wrap_eq {s : Shape} (x y : IVec s 32) (hb : (⟨0, ![]⟩ : Shape).BroadcastsInDim s ![])
    (h : ∀ i, 0 ≤ (x i).toInt) :
    select (cmpi .slt x (broadcastInDim s ![] hb (constantI ⟨0, ![]⟩ 32 0#32))) (addi x y) x = x := by
  funext i
  rw [select_apply]
  have hc : cmpi .slt x (broadcastInDim s ![] hb (constantI ⟨0, ![]⟩ 32 0#32)) i = 0#1 := by
    apply eq_zero_of_ne_one
    show ¬ IntOp.cmpi .slt (x i) ((broadcastInDim s ![] hb (constantI ⟨0, ![]⟩ 32 0#32)) i) = 1#1
    rw [broadcastInDim_scalar_apply, IntOp.cmpi_slt]
    have := h i
    show ¬ (x i).toInt < (0#32 : BitVec 32).toInt
    rw [show (0#32 : BitVec 32).toInt = 0 from by decide]
    omega
  rw [hc, select_zero]

/-- The index over the [P]-index p with k put on the summed last axis is (p, k). -/
theorem lift_last {P K : Nat} (h : (⟨2, ![P, K]⟩ : Shape).Reduces [(1 : Fin 2)] ⟨1, ![P]⟩) (p : Fin P) (k : Fin K) :
    h.lift (ix1 p) k = ix2 p k := by
  funext c; apply Fin.ext
  show h.liftVal (ix1 p) k.val c = (ix2 p k c).val
  unfold Shape.Reduces.liftVal
  match c with
  | ⟨0, _⟩ => simp <;> rfl
  | ⟨1, _⟩ => simp <;> rfl

/-- The printed logistic 1 / (1 + exp (-x)) is applied entry by entry: equal entries in, equal entries out. -/
theorem logistic_congr {F : FTy → Type} [FloatOps F] {s t : Shape} {φ : FTy} (C X : FVec F s φ) (C' Y : FVec F t φ)
    (i : s.Idx) (j : t.Idx) (hC : C i = C' j) (hX : X i = Y j) :
    Host.divf C (addf C (Host.exp (Host.negf X))) i = Host.divf C' (addf C' (Host.exp (Host.negf Y))) j := by
  show FloatOps.hostDivf (C i) (FloatOps.addf (C i) (FloatOps.hostUnary .exp (FloatOps.hostNegf (X i))))
    = FloatOps.hostDivf (C' j) (FloatOps.addf (C' j) (FloatOps.hostUnary .exp (FloatOps.hostNegf (Y j))))
  rw [hC, hX]

/-- The two spellings of a pair head's score agree at every pair. -/
theorem pair_head_eq {P : Nat}
    (A B : FVec Ideal ⟨2, ![P, 128]⟩ .f32) (w : FVec Ideal ⟨2, ![128, 1]⟩ .f32) (b : FVec Ideal ⟨1, ![1]⟩ .f32)
    (c1 : FVec Ideal ⟨0, ![]⟩ .f32)
    (hsw : (⟨2, ![128, 1]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![P, 128]⟩ ![0, 1])
    (hred : (⟨2, ![P, 128]⟩ : Shape).ReducesTo [(1 : Fin 2)] ⟨1, ![P]⟩)
    (hred' : (⟨2, ![P, 128]⟩ : Shape).Reduces [(1 : Fin 2)] ⟨1, ![P]⟩)
    (hu : 0 < (⟨0, ![]⟩ : Shape).numel)
    (hsb : (⟨1, ![1]⟩ : Shape).ShapeCasts ⟨0, ![]⟩)
    (hbP : (⟨0, ![]⟩ : Shape).BroadcastsInDim ⟨1, ![P]⟩ ![])
    (d : DotDims ⟨2, ![P, 128]⟩ ⟨2, ![128, 1]⟩ ⟨2, ![P, 1]⟩) (hd : IsPlain d)
    (hr1 : (⟨1, ![1]⟩ : Shape).BroadcastsInDim ⟨2, ![1, 1]⟩ ![1])
    (hr2 : (⟨2, ![1, 1]⟩ : Shape).BroadcastsInDim ⟨2, ![P, 1]⟩ ![0, 1])
    (hbP1 : (⟨0, ![]⟩ : Shape).BroadcastsInDim ⟨2, ![P, 1]⟩ ![])
    (hsc : (⟨2, ![P, 1]⟩ : Shape).ShapeCasts ⟨1, ![P]⟩) :
    Host.divf (broadcastInDim ⟨1, ![P]⟩ ![] hbP c1)
      (addf (broadcastInDim ⟨1, ![P]⟩ ![] hbP c1)
        (Host.exp (Host.negf (addf
          (Host.reduceAdd
            (mulf (mulf A B) (broadcastInDim ⟨2, ![P, 128]⟩ ![0, 1] hb2
              (broadcastInDim ⟨2, ![1, 128]⟩ ![1] hb1 (shapeCast ⟨1, ![128]⟩ w hsw))))
            (constant ⟨0, ![]⟩ .f32 0x00000000#32) hred hu)
          (broadcastInDim ⟨1, ![P]⟩ ![] hbP (shapeCast ⟨0, ![]⟩ b hsb))))))
    = shapeCast ⟨1, ![P]⟩
        (Host.divf (broadcastInDim ⟨2, ![P, 1]⟩ ![] hbP1 c1)
          (addf (broadcastInDim ⟨2, ![P, 1]⟩ ![] hbP1 c1)
            (Host.exp (Host.negf (addf (Host.dotGeneral d none (mulf A B) w)
              (broadcastInDim ⟨2, ![P, 1]⟩ ![0, 1] hr2 (broadcastInDim ⟨2, ![1, 1]⟩ ![1] hr1 b))))))) hsc := by
  funext i
  obtain ⟨p, rfl⟩ : ∃ p : Fin P, i = ix1 p := ⟨i 0, eq_ix1 i⟩
  -- the reshape [P, 1] -> [P] reads entry (p, 0)
  rw [shapeCast_apply _ hsc (ix1 p) (ix2 p (0 : Fin 1)) (by
    rw [Shape.rowMajor_val_two, Shape.rowMajor_val_one]
    show p.val * 1 + 0 = p.val
    omega)]
  refine logistic_congr _ _ _ _ (ix1 p) (ix2 p (0 : Fin 1)) ?_ ?_
  · rw [broadcastInDim_scalar_apply, broadcastInDim_scalar_apply]
  · -- the scores before the logistic
    rw [addf_apply, addf_apply]
    congr 1
    · -- the sum
      rw [hostReduceAdd_apply, Ideal.hostReduceAdd_single hred hred', constant_apply, Ideal.ofBits_zero_f32, zero_add]
      simp only [Host.dotGeneral]
      rw [Ideal.dotGeneral_apply, hd.sum_eq]
      refine Finset.sum_congr rfl fun (k : Fin 128) _ => ?_
      rw [lift_last hred' p k]
      show (A (ix2 p k) * B (ix2 p k)) * _ = (A (ix2 p k) * B (ix2 p k)) * w (ix2 k (0 : Fin 1))
      congr 1
      rw [broadcastInDim_apply ![0, 1] hb2 _ (ix2 p k) (ix2 (0 : Fin 1) k) (fun a => by
        match a with
        | ⟨0, _⟩ => rfl
        | ⟨1, _⟩ => rfl)]
      rw [broadcastInDim_apply ![1] hb1 _ (ix2 (0 : Fin 1) k) (ix1 k) (fun a => by
        match a with
        | ⟨0, _⟩ => rfl)]
      exact shapeCast_apply w hsw (ix1 k) (ix2 k (0 : Fin 1)) (by
        rw [Shape.rowMajor_val_two, Shape.rowMajor_val_one]
        show k.val * 1 + 0 = k.val
        omega)
    · -- the bias
      rw [broadcastInDim_scalar_apply]
      rw [broadcastInDim_apply ![0, 1] hr2 _ (ix2 p (0 : Fin 1)) (ix2 (0 : Fin 1) (0 : Fin 1)) (fun a => by
        match a with
        | ⟨0, _⟩ => rfl
        | ⟨1, _⟩ => rfl)]
      rw [broadcastInDim_apply ![1] hr1 _ (ix2 (0 : Fin 1) (0 : Fin 1)) (ix1 (0 : Fin 1)) (fun a => by
        match a with
        | ⟨0, _⟩ => rfl)]
      exact shapeCast_apply b hsb ix0 (ix1 (0 : Fin 1)) (by
        rw [Shape.rowMajor_val_one]
        rfl)

/-- Reading a table's rows through a round trip to a narrower float format is reading the table: both format
    changes are the identity at this instance. -/
theorem gather_round_trip {s si t : Shape} (g : GatherDims s si t) (T : FVec Ideal s .f32) (J : IVec si 32)
    (h1 : FTy.bf16.bits < FTy.f32.bits) :
    (extf .f32 (Host.gather g (truncf .bf16 T h1) J) h1 : FVec Ideal t .f32) = Host.gather g T J := rfl

section Kernel

variable {F : FTy → Type} [FloatOps F]

/-- A pair head as the kernel spells it: rows of two tables (through bf16 and back) at the two columns of an array of
    index pairs, multiplied entry by entry and by the weight row, summed over the 128 columns, plus the bias, then
    the printed logistic. -/
def pairHeadK {P R1 R2 : Nat}
    (g1 : GatherDims ⟨2, ![R1, 128]⟩ ⟨2, ![P, 1]⟩ ⟨2, ![P, 128]⟩) (g2 : GatherDims ⟨2, ![R2, 128]⟩ ⟨2, ![P, 1]⟩ ⟨2, ![P, 128]⟩)
    (hlt : FTy.bf16.bits < FTy.f32.bits)
    (hs0 : (⟨2, ![P, 2]⟩ : Shape).Slices ![0, 0] ⟨2, ![P, 1]⟩) (hs1 : (⟨2, ![P, 2]⟩ : Shape).Slices ![0, 1] ⟨2, ![P, 1]⟩)
    (hsc : (⟨2, ![P, 1]⟩ : Shape).ShapeCasts ⟨1, ![P]⟩)
    (hbI : (⟨1, ![P]⟩ : Shape).BroadcastsInDim ⟨2, ![P, 1]⟩ ![0])
    (hsw : (⟨2, ![128, 1]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![P, 128]⟩ ![0, 1])
    (hred : (⟨2, ![P, 128]⟩ : Shape).ReducesTo [(1 : Fin 2)] ⟨1, ![P]⟩)
    (hu : 0 < (⟨0, ![]⟩ : Shape).numel)
    (hsb : (⟨1, ![1]⟩ : Shape).ShapeCasts ⟨0, ![]⟩)
    (hbP : (⟨0, ![]⟩ : Shape).BroadcastsInDim ⟨1, ![P]⟩ ![])
    (T1 : FVec F ⟨2, ![R1, 128]⟩ .f32) (T2 : FVec F ⟨2, ![R2, 128]⟩ .f32) (I : IVec ⟨2, ![P, 2]⟩ 32)
    (w : FVec F ⟨2, ![128, 1]⟩ .f32) (b : FVec F ⟨1, ![1]⟩ .f32) : FVec F ⟨1, ![P]⟩ .f32 :=
  Host.divf (broadcastInDim ⟨1, ![P]⟩ ![] hbP (constant ⟨0, ![]⟩ .f32 0x3F800000#32))
    (addf (broadcastInDim ⟨1, ![P]⟩ ![] hbP (constant ⟨0, ![]⟩ .f32 0x3F800000#32))
      (Host.exp (Host.negf (addf
        (Host.reduceAdd
          (mulf
            (mulf
              (extf .f32 (Host.gather g1 (truncf .bf16 T1 hlt)
                (broadcastInDim ⟨2, ![P, 1]⟩ ![0] hbI (shapeCast ⟨1, ![P]⟩ (extractStridedSlice ⟨2, ![P, 1]⟩ ![0, 0] I hs0) hsc))) hlt)
              (extf .f32 (Host.gather g2 (truncf .bf16 T2 hlt)
                (broadcastInDim ⟨2, ![P, 1]⟩ ![0] hbI (shapeCast ⟨1, ![P]⟩ (extractStridedSlice ⟨2, ![P, 1]⟩ ![0, 1] I hs1) hsc))) hlt))
            (broadcastInDim ⟨2, ![P, 128]⟩ ![0, 1] hb2 (broadcastInDim ⟨2, ![1, 128]⟩ ![1] hb1 (shapeCast ⟨1, ![128]⟩ w hsw))))
          (constant ⟨0, ![]⟩ .f32 0x00000000#32) hred hu)
        (broadcastInDim ⟨1, ![P]⟩ ![] hbP (shapeCast ⟨0, ![]⟩ b hsb))))))

end Kernel

/-- Every entry of a column of an array of non-negative pairs is non-negative. -/
theorem col_nonneg {P : Nat} (x : IVec ⟨2, ![P, 2]⟩ 32) (off : Fin 2 → Nat) (h1 : (⟨2, ![P, 2]⟩ : Shape).Slices off ⟨2, ![P, 1]⟩)
    (h2 : (⟨2, ![P, 1]⟩ : Shape).ShapeCasts ⟨1, ![P]⟩) (hx : ∀ i, 0 ≤ (x i).toInt) (i : (⟨1, ![P]⟩ : Shape).Idx) :
    0 ≤ ((shapeCast ⟨1, ![P]⟩ (extractStridedSlice ⟨2, ![P, 1]⟩ off x h1) h2) i).toInt := by
  unfold shapeCast extractStridedSlice
  exact hx _

/-- The kernel's pair head is the reference's: the same rows (the reference's replacement of negative indices does
    nothing on non-negative pairs; the bf16 round trip is the identity), and the same score in its two spellings. -/
theorem pairHeadK_eq {P R1 R2 : Nat}
    (g1 : GatherDims ⟨2, ![R1, 128]⟩ ⟨2, ![P, 1]⟩ ⟨2, ![P, 128]⟩) (g2 : GatherDims ⟨2, ![R2, 128]⟩ ⟨2, ![P, 1]⟩ ⟨2, ![P, 128]⟩)
    (hlt : FTy.bf16.bits < FTy.f32.bits)
    (hs0 : (⟨2, ![P, 2]⟩ : Shape).Slices ![0, 0] ⟨2, ![P, 1]⟩) (hs1 : (⟨2, ![P, 2]⟩ : Shape).Slices ![0, 1] ⟨2, ![P, 1]⟩)
    (hsc : (⟨2, ![P, 1]⟩ : Shape).ShapeCasts ⟨1, ![P]⟩)
    (hbI : (⟨1, ![P]⟩ : Shape).BroadcastsInDim ⟨2, ![P, 1]⟩ ![0])
    (hsw : (⟨2, ![128, 1]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![P, 128]⟩ ![0, 1])
    (hred : (⟨2, ![P, 128]⟩ : Shape).ReducesTo [(1 : Fin 2)] ⟨1, ![P]⟩)
    (hred' : (⟨2, ![P, 128]⟩ : Shape).Reduces [(1 : Fin 2)] ⟨1, ![P]⟩)
    (hu : 0 < (⟨0, ![]⟩ : Shape).numel)
    (hsb : (⟨1, ![1]⟩ : Shape).ShapeCasts ⟨0, ![]⟩)
    (hbP : (⟨0, ![]⟩ : Shape).BroadcastsInDim ⟨1, ![P]⟩ ![])
    (d : DotDims ⟨2, ![P, 128]⟩ ⟨2, ![128, 1]⟩ ⟨2, ![P, 1]⟩) (hd : IsPlain d)
    (hr1 : (⟨1, ![1]⟩ : Shape).BroadcastsInDim ⟨2, ![1, 1]⟩ ![1])
    (hr2 : (⟨2, ![1, 1]⟩ : Shape).BroadcastsInDim ⟨2, ![P, 1]⟩ ![0, 1])
    (hbP1 : (⟨0, ![]⟩ : Shape).BroadcastsInDim ⟨2, ![P, 1]⟩ ![])
    (hsc' : (⟨2, ![P, 1]⟩ : Shape).ShapeCasts ⟨1, ![P]⟩)
    (n1 n2 : BitVec 32)
    (T1 : FVec Ideal ⟨2, ![R1, 128]⟩ .f32) (T2 : FVec Ideal ⟨2, ![R2, 128]⟩ .f32) (I : IVec ⟨2, ![P, 2]⟩ 32)
    (w : FVec Ideal ⟨2, ![128, 1]⟩ .f32) (b : FVec Ideal ⟨1, ![1]⟩ .f32) (hI : ∀ i, 0 ≤ (I i).toInt) :
    pairHeadK (F := Ideal) g1 g2 hlt hs0 hs1 hsc hbI hsw hb1 hb2 hred hu hsb hbP T1 T2 I w b
    = shapeCast ⟨1, ![P]⟩
        (Host.divf (broadcastInDim ⟨2, ![P, 1]⟩ ![] hbP1 (constant ⟨0, ![]⟩ .f32 0x3F800000#32))
          (addf (broadcastInDim ⟨2, ![P, 1]⟩ ![] hbP1 (constant ⟨0, ![]⟩ .f32 0x3F800000#32))
            (Host.exp (Host.negf (addf
              (Host.dotGeneral d none
                (mulf
                  (Host.gather g1 T1 (broadcastInDim ⟨2, ![P, 1]⟩ ![0] hbI
                    (select
                      (cmpi .slt (shapeCast ⟨1, ![P]⟩ (extractStridedSlice ⟨2, ![P, 1]⟩ ![0, 0] I hs0) hsc)
                        (broadcastInDim ⟨1, ![P]⟩ ![] hbP (constantI ⟨0, ![]⟩ 32 0#32)))
                      (addi (shapeCast ⟨1, ![P]⟩ (extractStridedSlice ⟨2, ![P, 1]⟩ ![0, 0] I hs0) hsc)
                        (broadcastInDim ⟨1, ![P]⟩ ![] hbP (constantI ⟨0, ![]⟩ 32 n1)))
                      (shapeCast ⟨1, ![P]⟩ (extractStridedSlice ⟨2, ![P, 1]⟩ ![0, 0] I hs0) hsc))))
                  (Host.gather g2 T2 (broadcastInDim ⟨2, ![P, 1]⟩ ![0] hbI
                    (select
                      (cmpi .slt (shapeCast ⟨1, ![P]⟩ (extractStridedSlice ⟨2, ![P, 1]⟩ ![0, 1] I hs1) hsc)
                        (broadcastInDim ⟨1, ![P]⟩ ![] hbP (constantI ⟨0, ![]⟩ 32 0#32)))
                      (addi (shapeCast ⟨1, ![P]⟩ (extractStridedSlice ⟨2, ![P, 1]⟩ ![0, 1] I hs1) hsc)
                        (broadcastInDim ⟨1, ![P]⟩ ![] hbP (constantI ⟨0, ![]⟩ 32 n2)))
                      (shapeCast ⟨1, ![P]⟩ (extractStridedSlice ⟨2, ![P, 1]⟩ ![0, 1] I hs1) hsc)))))
                w)
              (broadcastInDim ⟨2, ![P, 1]⟩ ![0, 1] hr2 (broadcastInDim ⟨2, ![1, 1]⟩ ![1] hr1 b))))))) hsc' := by
  rw [select_wrap_eq _ _ hbP (col_nonneg I ![0, 0] hs0 hsc hI), select_wrap_eq _ _ hbP (col_nonneg I ![0, 1] hs1 hsc hI)]
  unfold pairHeadK
  rw [gather_round_trip, gather_round_trip]
  exact pair_head_eq _ _ w b _ hsw hb1 hb2 hred hred' hu hsb hbP d hd hr1 hr2 hbP1 hsc'

end Cert.Lib
-- ==== Proof.RefValue.lean ====
/-
  The reference program's result is the layer G of the specification.

  The reference wraps each source index jnp-style (a negative index i becomes i + 10000), gathers the feature rows at the
  wrapped sources, adds row e of the gathered rows into row (destination of e) of a zero [10000, 256] array, adds c times
  the features (c the single-precision literal nearest 1.1) and multiplies the result by the weight matrix. With every
  source and destination word naming a node the wrap is the identity, the gather's clamp does nothing and every update
  of the scatter lands, so entry (r, k) of the combined array is c * feat (r, k) plus the sum over the edges into r of
  feat (source, k): the specification's combined row; the product with the weights is then G term by term.
-/
import proofs.«417977_j15444702396461_1_alg».proof.Proof.Gen.ReferenceIdeal.Read
import proofs.«417977_j15444702396461_1_alg».proof.Proof.Spec
import proofs.«417977_j15444702396461_1_alg».proof.Proof.LibAdjacency
import proofs.«417977_j15444702396461_1_alg».proof.Proof.LibPairHead

noncomputable section

namespace Cert.Gin

open Idealize.ShloMosaic Idealize.ShloMosaic.ValueIdx Cert.ReferenceIdeal
open Cert.ReferenceIdeal.Read Cert.Lib
open scoped BigOperators

/-- An edge list whose words name nodes has no negative word, so replacing a negative index i by i + 10000 changes
    nothing. -/
private theorem wrap_eq (x1 : (⟨S320000, .i32⟩ : BufTy).Contents (Elt Ideal)) (sIdx : Fin 320000 → Fin 10000)
    (hs : ∀ e : Fin 320000, (x1 (ix1 e)).toInt = ((sIdx e).val : Int)) :
    val_main_v4 (F := Ideal) x1 = x1 := by
  unfold val_main_v4 val_main_v1 val_main_v3 val_main_v0 val_main_c
  refine select_wrap_eq x1 _ Gen.bcast_S_S320000 (fun i => ?_)
  obtain ⟨e, rfl⟩ : ∃ e : Fin 320000, i = ix1 e := ⟨i 0, eq_ix1 i⟩
  rw [hs e]
  exact Int.natCast_nonneg _

/-- The column of wrapped sources at (e, 0) is the word of edge e. -/
private theorem src_col (x1 : (⟨S320000, .i32⟩ : BufTy).Contents (Elt Ideal)) (sIdx : Fin 320000 → Fin 10000)
    (hs : ∀ e : Fin 320000, (x1 (ix1 e)).toInt = ((sIdx e).val : Int)) (e : Fin 320000) :
    (val_main_v5 (F := Ideal) x1 (ix2 e (0 : Fin 1))).toInt = ((sIdx e).val : Int) := by
  rw [val_main_v5_apply, wrap_eq x1 sIdx hs,
    show idx_main_v5 (ix2 e (0 : Fin 1)) = ix1 e from funext fun a => match a with | ⟨0, _⟩ => rfl]
  exact hs e

/-- The column of destinations at (e, 0) is the word of edge e. -/
private theorem dst_col (x2 : (⟨S320000, .i32⟩ : BufTy).Contents (Elt Ideal)) (dIdx : Fin 320000 → Fin 10000)
    (hd : ∀ e : Fin 320000, (x2 (ix1 e)).toInt = ((dIdx e).val : Int)) (e : Fin 320000) :
    (val_main_v8 (F := Ideal) x2 (ix2 e (0 : Fin 1))).toInt = ((dIdx e).val : Int) := by
  rw [val_main_v8_apply,
    show idx_main_v8 (ix2 e (0 : Fin 1)) = ix1 e from funext fun a => match a with | ⟨0, _⟩ => rfl]
  exact hd e

/-- The gathered rows: row e is the feature row of the source of edge e. -/
private theorem gathered (x0 : (⟨S10000x256, .f32⟩ : BufTy).Contents (Elt Ideal))
    (x1 : (⟨S320000, .i32⟩ : BufTy).Contents (Elt Ideal)) (sIdx : Fin 320000 → Fin 10000)
    (hs : ∀ e : Fin 320000, (x1 (ix1 e)).toInt = ((sIdx e).val : Int)) (e : Fin 320000) (o : Fin 256) :
    val_main_v6 (F := Ideal) x0 x1 (ix2 e o) = x0 (ix2 (sIdx e) o) := by
  unfold val_main_v6
  exact gather_rows_apply_fin (N := 10000) (C := 256) (E := 320000)
    Gen.gather_S10000x256_S320000x1_S320000x256_1_0_n_n_0_1_1256_wf x0 (val_main_v5 (F := Ideal) x1) sIdx
    (src_col x1 sIdx hs) e o

/-- The scattered rows: entry (r, o) is the sum of feature o of the sources of the edges into r. -/
private theorem scattered (x0 : (⟨S10000x256, .f32⟩ : BufTy).Contents (Elt Ideal))
    (x1 x2 : (⟨S320000, .i32⟩ : BufTy).Contents (Elt Ideal)) (sIdx dIdx : Fin 320000 → Fin 10000)
    (hs : ∀ e : Fin 320000, (x1 (ix1 e)).toInt = ((sIdx e).val : Int))
    (hd : ∀ e : Fin 320000, (x2 (ix1 e)).toInt = ((dIdx e).val : Int)) (r : Fin 10000) (o : Fin 256) :
    val_main_v9 (F := Ideal) x0 x1 x2 (ix2 r o) = agg x0 sIdx dIdx r o := by
  unfold val_main_v9
  show Ideal.hostScatterAdd (rowScatterDims 10000 256 320000 Gen.scatter_S10000x256_S320000x1_S320000x256_1_0_0_1_wf)
    (val_main_v7 (F := Ideal)) (val_main_v8 (F := Ideal) x2) (val_main_v6 (F := Ideal) x0 x1) (ix2 r o) = _
  rw [scatterAdd_rows_apply_fin _ _ _ _ dIdx (dst_col x2 dIdx hd) r o, val_main_v7_apply, val_main_cst_apply]
  show Ideal.ofBits .f32 0x00000000#32 + _ = _
  rw [Ideal.ofBits_zero_f32, zero_add]
  unfold agg
  refine Finset.sum_congr rfl (fun e _ => ?_)
  rw [gathered x0 x1 sIdx hs e o]

theorem ref_eq (x0 : (⟨S10000x256, .f32⟩ : BufTy).Contents (Elt Ideal)) (x1 x2 : (⟨S320000, .i32⟩ : BufTy).Contents (Elt Ideal))
    (x3 : (⟨S256x256, .f32⟩ : BufTy).Contents (Elt Ideal))
    (sIdx dIdx : Fin 320000 → Fin 10000)
    (hs : ∀ e : Fin 320000, (x1 (ix1 e)).toInt = ((sIdx e).val : Int))
    (hd : ∀ e : Fin 320000, (x2 (ix1 e)).toInt = ((dIdx e).val : Int)) :
    Cert.ReferenceIdeal.Read.val_main_v13 (F := Ideal) x0 x1 x2 x3 = Cert.Gin.G x0 sIdx dIdx x3 := by
  funext i
  obtain ⟨r, o, rfl⟩ : ∃ (r : Fin 10000) (o : Fin 256), i = ix2 r o := ⟨i 0, i 1, eq_ix2 i⟩
  rw [val_main_v13_apply]
  show _ = ∑ k : Fin 256, comb x0 sIdx dIdx r k * x3 (ix2 k o)
  refine Finset.sum_congr rfl (fun k _ => ?_)
  have el : lidx_main_v13 (ix2 r o) k = ix2 r k :=
    funext fun a => match a with | ⟨0, _⟩ => rfl | ⟨1, _⟩ => rfl
  have er : ridx_main_v13 (ix2 r o) k = ix2 k o :=
    funext fun a => match a with | ⟨0, _⟩ => rfl | ⟨1, _⟩ => rfl
  rw [el, er, val_main_v12_apply, val_main_v11_apply, val_main_v10_apply, val_main_cst_1_apply,
    scattered x0 x1 x2 sIdx dIdx hs hd r k]
  rfl

end Cert.Gin

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.Accum.lean ====
/-
  The dense route to the neighbour sum.

  The kernel does not walk the edges. It is handed a dense 10240 x 10240 matrix A whose entry (r, s) counts the edges
  from node s to node r, and the features padded with zero rows to 10240 rows, and it forms A times the padded features
  by sweeping the 10240 columns of A in 8 tiles of 1280, adding each tile's partial product to a running sum that starts
  from zero. Here: the running sum as a function of the number of tiles swept (accN), its two step equations, and its
  value after the last tile: the 8 tiles are the 10240 columns (a regrouping of a finite sum), and a count matrix against
  a column is the sum over the edges of the column at the edge's source (multiplication distributes over a sum of
  nonnegative terms whatever the other factor, so the column's entries may be any extended reals).
-/
import proofs.«417977_j15444702396461_1_alg».proof.Proof.Spec
import proofs.«417977_j15444702396461_1_alg».proof.Proof.LibAdjacency
import proofs.«417977_j15444702396461_1_alg».proof.Proof.LibTileSum

noncomputable section

namespace Cert.Gin

open Idealize.ShloMosaic Idealize.ShloMosaic.ValueIdx
open scoped BigOperators

/-- The dense count matrix, [10240, 10240]. -/
abbrev SA : Shape := ⟨2, ![10240, 10240]⟩
/-- The padded features, [10240, 256]. -/
abbrev SP : Shape := ⟨2, ![10240, 256]⟩

/-- The product of A's entry (R, s) with the padded features' entry (s, q), by position numbers (zero off the arrays). -/
def rowTerm (A : SA.Idx → EReal) (P : SP.Idx → EReal) (R : ℕ) (q : Fin 256) (s : ℕ) : EReal :=
  if h : R < 10240 ∧ s < 10240 then A (ix2 (⟨R, h.1⟩ : Fin 10240) (⟨s, h.2⟩ : Fin 10240)) * P (ix2 (⟨s, h.2⟩ : Fin 10240) q) else 0

/-- One tile's partial product: columns 1280 kt .. 1280 kt + 1279 of row R against the same rows of column q. -/
def tileSum (A : SA.Idx → EReal) (P : SP.Idx → EReal) (R : ℕ) (q : Fin 256) (kt : ℕ) : EReal :=
  ∑ s : Fin 1280, rowTerm A P R q (1280 * kt + s.val)

/-- The running sum after tiles 0 .. n. -/
def accN (A : SA.Idx → EReal) (P : SP.Idx → EReal) (R : ℕ) (q : Fin 256) (n : ℕ) : EReal :=
  ∑ kt ∈ Finset.range (n + 1), tileSum A P R q kt

/-- After the first tile: zero plus that tile. -/
theorem accN_zero (A : SA.Idx → EReal) (P : SP.Idx → EReal) (R : ℕ) (q : Fin 256) :
    accN A P R q 0 = 0 + tileSum A P R q 0 := by
  unfold accN
  rw [Finset.sum_range_one, zero_add]

/-- One more tile. -/
theorem accN_succ (A : SA.Idx → EReal) (P : SP.Idx → EReal) (R : ℕ) (q : Fin 256) (n : ℕ) :
    accN A P R q (n + 1) = accN A P R q n + tileSum A P R q (n + 1) := by
  unfold accN
  rw [Finset.sum_range_succ]

/-- After all 8 tiles the running sum is the whole row of A against the whole column. -/
theorem accN_seven (A : SA.Idx → EReal) (P : SP.Idx → EReal) (R : Fin 10240) (q : Fin 256) :
    accN A P R.val q 7 = ∑ s : Fin 10240, A (ix2 R s) * P (ix2 s q) := by
  unfold accN tileSum
  rw [Cert.Lib.sum_fin_tiles 1280 8 (rowTerm A P R.val q)]
  show ∑ e : Fin 10240, rowTerm A P R.val q e.val = _
  refine Finset.sum_congr rfl (fun s _ => ?_)
  unfold rowTerm
  rw [dif_pos ⟨R.isLt, s.isLt⟩]

/-- THE DENSE ROUTE IS THE NEIGHBOUR SUM. If A counts the edges (entry (r, s): the number of edges e with dIdx e = r
    and sIdx e = s, the positions compared by number) and the padded features hold feat on the first 10000 rows, then
    after all 8 tiles row R < 10000 of the running sum is the neighbour sum of node R. -/
theorem accN_eq_agg (feat : SN.Idx → EReal) (sIdx dIdx : Fin 320000 → Fin 10000)
    (A : SA.Idx → EReal) (P : SP.Idx → EReal)
    (hA : ∀ r s : Fin 10240, A (ix2 r s)
      = ∑ e : Fin 320000, if (dIdx e).val = r.val ∧ (sIdx e).val = s.val then (1 : EReal) else 0)
    (hP : ∀ (r : Fin 10240) (k : Fin 256), P (ix2 r k)
      = if h : r.val < 10000 then feat (ix2 (⟨r.val, h⟩ : Fin 10000) k) else 0)
    (R : Fin 10000) (q : Fin 256) :
    accN A P R.val q 7 = agg feat sIdx dIdx R q := by
  have hR : R.val < 10240 := by have := R.isLt; omega
  -- the endpoints as positions on the padded axis
  let s' : Fin 320000 → Fin 10240 := fun e => ⟨(sIdx e).val, by have := (sIdx e).isLt; omega⟩
  let d' : Fin 320000 → Fin 10240 := fun e => ⟨(dIdx e).val, by have := (dIdx e).isLt; omega⟩
  have h7 := accN_seven A P (⟨R.val, hR⟩ : Fin 10240) q
  rw [h7]
  have hA' : ∀ s : Fin 10240, A (ix2 (⟨R.val, hR⟩ : Fin 10240) s)
      = ∑ e : Fin 320000, if d' e = (⟨R.val, hR⟩ : Fin 10240) ∧ s' e = s then (1 : EReal) else 0 := by
    intro s
    rw [hA]
    refine Finset.sum_congr rfl (fun e _ => ?_)
    simp only [d', s', Fin.ext_iff]
  rw [Finset.sum_congr rfl (fun s _ => by rw [hA' s])]
  rw [Cert.Lib.adj_matvec (fun _ => (1 : EReal)) (fun _ => zero_le_one) s' d' (fun s => P (ix2 s q)) (⟨R.val, hR⟩ : Fin 10240)]
  unfold agg
  refine Finset.sum_congr rfl (fun e _ => ?_)
  have hd : (d' e = (⟨R.val, hR⟩ : Fin 10240)) ↔ dIdx e = R := by
    simp only [d', Fin.ext_iff]
  by_cases h : dIdx e = R
  · rw [if_pos (hd.mpr h), if_pos h, mul_one, hP, dif_pos (sIdx e).isLt]
  · rw [if_neg (fun h' => h (hd.mp h')), if_neg h]

end Cert.Gin

end
-- ==== Proof.KernelBlocks.lean ====
/-
  The blocks a grid point reads, as entries of the arrays.

  The grid is 8 row tiles by 8 column tiles, walked row tile by row tile; point t is row tile t / 8, column tile
  t mod 8. The count matrix's block at the point is rows 1280 (t / 8) .. and columns 1280 (t mod 8) .. of the matrix;
  the feature block is rows 1280 (t mod 8) .. of the padded features; the node's own block is rows 1280 (t / 8) .. of
  them; the weight block is the whole weight matrix. So one tile's contribution at entry (p, q) is the tile sum of
  row 1280 (t / 8) + p over column tile t mod 8.
-/
import proofs.«417977_j15444702396461_1_alg».proof.Proof.Gen.KernelIdeal.Frame
import proofs.«417977_j15444702396461_1_alg».proof.Proof.Accum
import Idealize.ShloMosaic.Lib.Pipeline.Value
import Idealize.ShloMosaic.Lib.ValueIdx

set_option maxRecDepth 16384
-- one declaration at a time: each index fact is decided over all 64 grid points
set_option Elab.async false

noncomputable section

open Idealize.ShloMosaic Idealize.ShloMosaic.TcCoe Idealize.SL.Sem Idealize.ShloMosaic.ValueIdx
open Idealize.ShloMosaic.Pipeline (Dat)
open scoped BigOperators

namespace Cert.Gin.KVal

open Cert.KernelIdeal Cert.KernelIdeal.Gen

variable (m : (ℓ : Loc nD τ sig) → Buf (Elt Ideal) ℓ)

/-- The four arrays the region reads, as it finds them: the count matrix, the padded features in the narrower format,
    the padded features, the weights in the narrower format. -/
abbrev Aarr (c : Dev nD) : Vec Ideal S10240x10240 .bf16 := V m c main_v13
abbrev Parr (c : Dev nD) : Vec Ideal S10240x256 .bf16 := V m c main_v17
abbrev Oarr (c : Dev nD) : Vec Ideal S10240x256 .f32 := V m c main_v16
abbrev Warr (c : Dev nD) : Vec Ideal S256x256 .bf16 := V m c main_v18

/-- Their blocks at point t. -/
abbrev ablk (c : Dev nD) (t : Fin cfg0.N) : Vec Ideal S1280x1280 .bf16 := iblk m c 0 t
abbrev pblk (c : Dev nD) (t : Fin cfg0.N) : Vec Ideal S1280x256 .bf16 := iblk m c 1 t
abbrev oblk (c : Dev nD) (t : Fin cfg0.N) : Vec Ideal S1280x256 .f32 := iblk m c 2 t
abbrev wblk (c : Dev nD) (t : Fin cfg0.N) : Vec Ideal S256x256 .bf16 := iblk m c 3 t

/-- The block indices at point t: (t / 8, t mod 8), (t mod 8, 0), (t / 8, 0), (0, 0) — decided over the 64 points. -/
theorem idx0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The count block at (p, s) is the matrix at (1280 (t / 8) + p, 1280 (t mod 8) + s). -/
theorem ablk_apply (c : Dev nD) (t : Fin cfg0.N) (p s : Fin 1280) (R S : Fin 10240)
    (hR : R.val = 1280 * (t.val / 8) + p.val) (hS : S.val = 1280 * (t.val % 8) + s.val) :
    ablk m c t (ix2 p s) = Aarr m c (ix2 R S) := by
  have key : ∀ X : Vec Ideal S10240x10240 .bf16,
      ((cfg0.win 0).blk t).view.read (Elt Ideal) X (ix2 p s) = X (ix2 R S) := by
    intro X
    rw [View.read_apply]
    show X (((cfg0.win 0).blk t).view.emb (ix2 p s)) = X (ix2 R S)
    refine congrArg X ?_
    funext a
    apply Fin.ext
    match a with
    | ⟨0, _⟩ =>
      show win0_0.index t 0 * 1280 + 1 * p.val = R.val
      rw [(idx0 t).1, hR]; omega
    | ⟨1, _⟩ =>
      show win0_0.index t 1 * 1280 + 1 * s.val = S.val
      rw [(idx0 t).2, hS]; omega
  exact key (V m c (Pipeline.arrRef spec0 0))

/-- The feature block at (s, q) is the padded features at (1280 (t mod 8) + s, q). -/
theorem pblk_apply (c : Dev nD) (t : Fin cfg0.N) (s : Fin 1280) (q : Fin 256) (S : Fin 10240)
    (hS : S.val = 1280 * (t.val % 8) + s.val) :
    pblk m c t (ix2 s q) = Parr m c (ix2 S q) := by
  have key : ∀ X : Vec Ideal S10240x256 .bf16,
      ((cfg0.win 1).blk t).view.read (Elt Ideal) X (ix2 s q) = X (ix2 S q) := by
    intro X
    rw [View.read_apply]
    show X (((cfg0.win 1).blk t).view.emb (ix2 s q)) = X (ix2 S q)
    refine congrArg X ?_
    funext a
    apply Fin.ext
    match a with
    | ⟨0, _⟩ =>
      show win0_1.index t 0 * 1280 + 1 * s.val = S.val
      rw [(idx1 t).1, hS]; omega
    | ⟨1, _⟩ =>
      show win0_1.index t 1 * 256 + 1 * q.val = q.val
      rw [(idx1 t).2]; omega
  exact key (V m c (Pipeline.arrRef spec0 1))

/-- The node's own block at (p, j) is the padded features at (1280 (t / 8) + p, j). -/
theorem oblk_apply (c : Dev nD) (t : Fin cfg0.N) (p : Fin 1280) (j : Fin 256) (R : Fin 10240)
    (hR : R.val = 1280 * (t.val / 8) + p.val) :
    oblk m c t (ix2 p j) = Oarr m c (ix2 R j) := by
  have key : ∀ X : Vec Ideal S10240x256 .f32,
      ((cfg0.win 2).blk t).view.read (Elt Ideal) X (ix2 p j) = X (ix2 R j) := by
    intro X
    rw [View.read_apply]
    show X (((cfg0.win 2).blk t).view.emb (ix2 p j)) = X (ix2 R j)
    refine congrArg X ?_
    funext a
    apply Fin.ext
    match a with
    | ⟨0, _⟩ =>
      show win0_2.index t 0 * 1280 + 1 * p.val = R.val
      rw [(idx2 t).1, hR]; omega
    | ⟨1, _⟩ =>
      show win0_2.index t 1 * 256 + 1 * j.val = j.val
      rw [(idx2 t).2]; omega
  exact key (V m c (Pipeline.arrRef spec0 2))

/-- The weight block is the weight matrix. -/
theorem wblk_apply (c : Dev nD) (t : Fin cfg0.N) (j q : Fin 256)
    :
    wblk m c t (ix2 j q) = Warr m c (ix2 j q) := by
  have key : ∀ X : Vec Ideal S256x256 .bf16,
      ((cfg0.win 3).blk t).view.read (Elt Ideal) X (ix2 j q) = X (ix2 j q) := by
    intro X
    rw [View.read_apply]
    show X (((cfg0.win 3).blk t).view.emb (ix2 j q)) = X (ix2 j q)
    refine congrArg X ?_
    funext a
    apply Fin.ext
    match a with
    | ⟨0, _⟩ =>
      show win0_3.index t 0 * 256 + 1 * j.val = j.val
      rw [(idx3 t).1]; omega
    | ⟨1, _⟩ =>
      show win0_3.index t 1 * 256 + 1 * q.val = q.val
      rw [(idx3 t).2]; omega
  exact key (V m c (Pipeline.arrRef spec0 3))

/-- One tile's contribution at (p, q): the tile sum of row 1280 (t / 8) + p over column tile t mod 8. -/
theorem tile_eq (c : Dev nD) (t : Fin cfg0.N) (p : Fin 1280) (q : Fin 256) :
    ∑ s : Fin 1280, (ablk m c t (ix2 p s) : EReal) * (pblk m c t (ix2 s q) : EReal)
      = tileSum (Aarr m c) (Parr m c) (1280 * (t.val / 8) + p.val) q (t.val % 8) := by
  have hN : t.val < 64 := lt_of_lt_of_eq t.isLt (show cfg0.N = 64 from N_0)
  unfold tileSum
  refine Finset.sum_congr rfl (fun s _ => ?_)
  have hR : 1280 * (t.val / 8) + p.val < 10240 := by have := p.isLt; omega
  have hS : 1280 * (t.val % 8) + s.val < 10240 := by have := s.isLt; omega
  unfold rowTerm
  rw [dif_pos ⟨hR, hS⟩, ablk_apply m c t p s ⟨_, hR⟩ ⟨_, hS⟩ rfl rfl, pblk_apply m c t s q ⟨_, hS⟩ rfl]

end Cert.Gin.KVal

end
-- ==== Proof.KernelPieces.lean ====
/-
  What one grid point of the kernel leaves behind, as values.

  The kernel's body, at a point (row tile, column tile), adds to a running block, kept in a scratch buffer between
  points, the product of the count matrix's block with the padded features' block of that column tile; at the first
  column tile it first resets the running block to zero, and at the last it writes out 1.1 times the node's own block
  plus the running block, times the weight matrix. The three ways a point can go (first, middle, last column tile) each
  leave one covering store in the scratch (two at the first: the reset, then the update, which reads the reset back);
  the last also one covering store in the output block. Each is the body's arithmetic of the blocks the point reads.
-/
import proofs.«417977_j15444702396461_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Gin.KVal

open Cert.KernelIdeal Cert.KernelIdeal.Gen

variable {F : FTy → Type} [FloatOps F]

theorem hz : (![0, 0] : Fin 2 → Nat) = fun _ => 0 := funext fun a => by fin_cases a <;> rfl

/-- The zero block the reset stores. -/
abbrev zeroBlk : Vec F S1280x256 .f32 := k0_pay1 (F := F)

/-- A middle column tile leaves, in the running block holding xs0, the update of xs0 by the two input blocks. -/
theorem sout_B (c : Dev nD) (i : grid0.Coords) (arg2 : Memref sig .tc .vmem S1280x1280 .bf16) (harg2 : arg2.IsWhole) (arg3 : Memref sig .tc .vmem S1280x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1280x256 .f32) (harg6 : arg6.IsWhole) (arg7 : Memref sig .tc .vmem S1280x256 .f32) (harg7 : arg7.IsWhole) (hc0 : ¬cond0_0 i) (hc1 : ¬cond0_1 i)
    (x0 : Vec F S1280x1280 .bf16) (x1 : Vec F S1280x256 .bf16) (x2 : Vec F S1280x256 .f32) (x3 : Vec F S256x256 .bf16) (xs0 : Vec F S1280x256 .f32) :
    sout0_B_0 c i arg2 harg2 arg3 harg3 arg4 harg4 arg5 harg5 arg6 harg6 arg7 harg7 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg7.read_unread,
    View.ld_unit_zero (S := S1280x1280) hz, View.ld_unit_zero (S := S1280x256) hz]

/-- The last column tile leaves the same update in the running block, -/
theorem sout_C (c : Dev nD) (i : grid0.Coords) (arg2 : Memref sig .tc .vmem S1280x1280 .bf16) (harg2 : arg2.IsWhole) (arg3 : Memref sig .tc .vmem S1280x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1280x256 .f32) (harg6 : arg6.IsWhole) (arg7 : Memref sig .tc .vmem S1280x256 .f32) (harg7 : arg7.IsWhole) (hc0 : ¬cond0_0 i) (hc1 : cond0_1 i)
    (x0 : Vec F S1280x1280 .bf16) (x1 : Vec F S1280x256 .bf16) (x2 : Vec F S1280x256 .f32) (x3 : Vec F S256x256 .bf16) (xs0 : Vec F S1280x256 .f32) :
    sout0_C_0 c i arg2 harg2 arg3 harg3 arg4 harg4 arg5 harg5 arg6 harg6 arg7 harg7 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread,
    View.ld_unit_zero (S := S1280x1280) hz, View.ld_unit_zero (S := S1280x256) hz]

/-- and writes out the combination of the node's own block with that updated running block, against the weights. -/
theorem out_C (c : Dev nD) (i : grid0.Coords) (arg2 : Memref sig .tc .vmem S1280x1280 .bf16) (harg2 : arg2.IsWhole) (arg3 : Memref sig .tc .vmem S1280x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1280x256 .f32) (harg6 : arg6.IsWhole) (arg7 : Memref sig .tc .vmem S1280x256 .f32) (harg7 : arg7.IsWhole) (hc0 : ¬cond0_0 i) (hc1 : cond0_1 i)
    (x0 : Vec F S1280x1280 .bf16) (x1 : Vec F S1280x256 .bf16) (x2 : Vec F S1280x256 .f32) (x3 : Vec F S256x256 .bf16) (xs0 : Vec F S1280x256 .f32) :
    out0_C_4 c i arg2 harg2 arg3 harg3 arg4 harg4 arg5 harg5 arg6 harg6 arg7 harg7 hc0 hc1 x0 x1 x2 x3 xs0 = k0_pay3 x2 (k0_pay2 x0 x1 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S1280x1280) hz, View.ld_unit_zero (S := S1280x256) hz, View.ld_unit_zero (S := S256x256) hz,
    View.readCov_unit_zero (S := S1280x256) _ hz]

/-- The first column tile resets the running block and leaves the update of the zero block. -/
theorem sout_A (c : Dev nD) (i : grid0.Coords) (arg2 : Memref sig .tc .vmem S1280x1280 .bf16) (harg2 : arg2.IsWhole) (arg3 : Memref sig .tc .vmem S1280x256 .bf16) (harg3 : arg3.IsWhole) (arg4 : Memref sig .tc .vmem S1280x256 .f32) (harg4 : arg4.IsWhole) (arg5 : Memref sig .tc .vmem S256x256 .bf16) (harg5 : arg5.IsWhole) (arg6 : Memref sig .tc .vmem S1280x256 .f32) (harg6 : arg6.IsWhole) (arg7 : Memref sig .tc .vmem S1280x256 .f32) (harg7 : arg7.IsWhole) (hc0 : cond0_0 i) (hc1 : ¬cond0_1 i)
    (x0 : Vec F S1280x1280 .bf16) (x1 : Vec F S1280x256 .bf16) (x2 : Vec F S1280x256 .f32) (x3 : Vec F S256x256 .bf16) :
    sout0_A_0 c i arg2 harg2 arg3 harg3 arg4 harg4 arg5 harg5 arg6 harg6 arg7 harg7 hc0 hc1 x0 x1 x2 x3 = k0_pay2 x0 x1 (zeroBlk (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1280x256) hz, View.readCov_unit_zero (S := S1280x256) _ hz]
  simp only [View.readAt_eq_ld, harg2.read_unread, harg3.read_unread,
    View.ld_unit_zero (S := S1280x1280) hz, View.ld_unit_zero (S := S1280x256) hz]

end Cert.Gin.KVal

end
-- ==== Proof.KernelPay.lean ====
/-
  The body's two stores read at an entry, at the exact values.

  The update of the running block at entry (p, q) adds to it the product of row p of the count matrix's block with
  column q of the feature block, a sum over the 1280 columns of the tile; started from the zero block the first tile
  contributes that sum alone. The output block at (p, q) is the sum over the 256 features j of
  (c * own (p, j) + running (p, j)) * weight (j, q), c the exact value of the literal nearest 1.1: the conversion of
  the combined block to a narrower format before the product is the identity on exact values, and both products start
  from a zero block.
-/
import proofs.«417977_j15444702396461_1_alg».proof.Proof.Gen.KernelIdeal.Skeleton
import proofs.«417977_j15444702396461_1_alg».proof.Proof.LibRowTile
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.Gin.KVal

open Cert.KernelIdeal Cert.KernelIdeal.Gen

/-- The count block against the feature block is a plain product [1280, 1280] · [1280, 256]. -/
theorem plainA : Cert.Lib.IsPlain dot_S1280x1280_S1280x256_S1280x256_1_0_0_1_n_n := by
  constructor <;> first | rfl | decide

/-- The combined block against the weights is a plain product [1280, 256] · [256, 256]. -/
theorem plainW : Cert.Lib.IsPlain dot_S1280x256_S256x256_S1280x256_1_0_0_1_n_n := by
  constructor <;> first | rfl | decide

/-- The reset stores zero at every entry. -/
theorem pay1_apply (y : S1280x256.Idx) : (k0_pay1 (F := Ideal) : S1280x256.Idx → EReal) y = 0 := by
  unfold k0_pay1
  simp only [shapeCast_self, broadcast]
  exact Ideal.ofBits_zero_f32

/-- The update at (p, q): the running entry plus row p of the count block against column q of the feature block. -/
theorem pay2_apply (x0 : Vec Ideal S1280x1280 .bf16) (x1 : Vec Ideal S1280x256 .bf16) (xs : Vec Ideal S1280x256 .f32)
    (p : Fin 1280) (q : Fin 256) :
    (k0_pay2 x0 x1 xs : S1280x256.Idx → EReal) (ix2 p q)
      = (xs (ix2 p q) : EReal) + ∑ s : Fin 1280, (x0 (ix2 p s) : EReal) * (x1 (ix2 s q) : EReal) := by
  unfold k0_pay2
  simp only [shapeCast_self, addf, matmul]
  rw [Ideal.matmul_constant_zero_apply, Ideal.addf_def]
  congr 1
  exact plainA.sum_eq x0 x1 (ix2 p q)

/-- The output at (p, q): the combined row p against column q of the weights. -/
theorem pay3_apply (x2 acc : Vec Ideal S1280x256 .f32) (x3 : Vec Ideal S256x256 .bf16)
    (p : Fin 1280) (q : Fin 256) :
    (k0_pay3 x2 acc x3 : S1280x256.Idx → EReal) (ix2 p q)
      = ∑ j : Fin 256, (Ideal.ofBits .f32 0x3F8CCCCD#32 * (x2 (ix2 p j) : EReal) + (acc (ix2 p j) : EReal)) * (x3 (ix2 j q) : EReal) := by
  unfold k0_pay3
  simp only [shapeCast_self, matmul]
  rw [Ideal.matmul_constant_zero_apply]
  refine (plainW.sum_eq _ x3 (ix2 p q)).trans ?_
  refine Finset.sum_congr rfl (fun j _ => ?_)
  simp only [truncf, addf, mulf, broadcast, Ideal.truncf_def, Ideal.addf_def, Ideal.mulf_def, Ideal.ofBits_def]

end Cert.Gin.KVal

end
-- ==== Proof.KernelAcc.lean ====
/-
  The running block after every grid point.

  By induction on the point: the first column tile of a row tile resets the running block and adds its tile, every
  later column tile adds its tile to what the point before left. So after point t the running block holds, at (p, q),
  the running sum of row 1280 (t / 8) + p after t mod 8 + 1 column tiles; and the last column tile of a row tile writes
  out, from that running block, the combined rows against the weights.
-/
import proofs.«417977_j15444702396461_1_alg».proof.Proof.KernelBlocks
import proofs.«417977_j15444702396461_1_alg».proof.Proof.KernelPieces
import proofs.«417977_j15444702396461_1_alg».proof.Proof.KernelPay

set_option maxRecDepth 16384
set_option Elab.async false

noncomputable section

open Idealize.ShloMosaic Idealize.ShloMosaic.TcCoe Idealize.SL.Sem Idealize.ShloMosaic.ValueIdx
open Idealize.ShloMosaic.Pipeline (Dat)
open scoped BigOperators

namespace Cert.Gin.KVal

open Cert.KernelIdeal Cert.KernelIdeal.Gen

variable (m : (ℓ : Loc nD τ sig) → Buf (Elt Ideal) ℓ)

/-- The running block after a point of the first column tile: the update of the zero block. -/
theorem scr_A (c : Dev nD) (t : Fin cfg0.N) (h0 : t.val % 8 = 0) (h1 : ¬t.val % 8 = 7) :
    (outsAt0 m c t.val t.isLt).2 = k0_pay2 (ablk m c t) (pblk m c t) (zeroBlk (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t) (iblk m c 3 t)

/-- After a point of a middle column tile: the update of what the point before left. -/
theorem scr_B (c : Dev nD) (t : Fin cfg0.N) (h0 : ¬t.val % 8 = 0) (h1 : ¬t.val % 8 = 7) :
    (outsAt0 m c t.val t.isLt).2
      = k0_pay2 (ablk m c t) (pblk m c t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After a point of the last column tile: the same update, -/
theorem scr_C (c : Dev nD) (t : Fin cfg0.N) (h0 : ¬t.val % 8 = 0) (h1 : t.val % 8 = 7) :
    (outsAt0 m c t.val t.isLt).2
      = k0_pay2 (ablk m c t) (pblk m c t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- and the output block it writes: the node's own block combined with the updated running block, against the weights. -/
theorem outb_C (c : Dev nD) (t : Fin cfg0.N) (h0 : ¬t.val % 8 = 0) (h1 : t.val % 8 = 7) :
    (outsAt0 m c t.val t.isLt).1 = k0_pay3 (oblk m c t) (outsAt0 m c t.val t.isLt).2 (wblk m c t) := by
  rw [scr_C m c t h0 h1, outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- The zero block is zero at every entry. -/
theorem zeroBlk_apply (y : S1280x256.Idx) : ((zeroBlk (F := Ideal)) y : EReal) = 0 := pay1_apply y

/-- THE RUNNING BLOCK. After point n the scratch holds, at (p, q), the running sum of row 1280 (n / 8) + p after
    n mod 8 + 1 column tiles. -/
theorem scratch_eq (c : Dev nD) : ∀ (n : ℕ) (hn : n < cfg0.N) (p : Fin 1280) (q : Fin 256),
    ((outsAt0 m c n hn).2 (ix2 p q) : EReal)
      = accN (Aarr m c) (Parr m c) (1280 * (n / 8) + p.val) q (n % 8) := by
  intro n
  induction n with
  | zero =>
    intro hn p q
    refine (congrFun (scr_A m c ⟨0, hn⟩ rfl (by show ¬(0 : ℕ) % 8 = 7; decide)) (ix2 p q)).trans ?_
    refine (pay2_apply (ablk m c ⟨0, hn⟩) (pblk m c ⟨0, hn⟩) (zeroBlk (F := Ideal)) p q).trans ?_
    refine (congrArg₂ (· + ·) (zeroBlk_apply (ix2 p q)) (tile_eq m c ⟨0, hn⟩ p q)).trans ?_
    exact (accN_zero _ _ _ _).symm
  | succ n ih =>
    intro hn p q
    have hN : n + 1 < 64 := lt_of_lt_of_eq hn (show cfg0.N = 64 from N_0)
    by_cases h0 : (n + 1) % 8 = 0
    · have h1 : ¬(n + 1) % 8 = 7 := by omega
      refine (congrFun (scr_A m c ⟨n + 1, hn⟩ h0 h1) (ix2 p q)).trans ?_
      refine (pay2_apply (ablk m c ⟨n + 1, hn⟩) (pblk m c ⟨n + 1, hn⟩) (zeroBlk (F := Ideal)) p q).trans ?_
      refine (congrArg₂ (· + ·) (zeroBlk_apply (ix2 p q)) (tile_eq m c ⟨n + 1, hn⟩ p q)).trans ?_
      show 0 + tileSum (Aarr m c) (Parr m c) (1280 * ((n + 1) / 8) + p.val) q ((n + 1) % 8) = _
      rw [h0]
      exact (accN_zero _ _ _ _).symm
    · have hstep : accN (Aarr m c) (Parr m c) (1280 * ((n + 1) / 8) + p.val) q ((n + 1) % 8)
          = accN (Aarr m c) (Parr m c) (1280 * (n / 8) + p.val) q (n % 8)
            + tileSum (Aarr m c) (Parr m c) (1280 * ((n + 1) / 8) + p.val) q ((n + 1) % 8) := by
        have e1 : (n + 1) / 8 = n / 8 := by omega
        have e2 : (n + 1) % 8 = n % 8 + 1 := by omega
        rw [e2, accN_succ, e1]
      have hprev : ((outsAt0 m c (n + 1 - 1) (Nat.lt_of_le_of_lt (Nat.sub_le _ _) hn)).2 (ix2 p q) : EReal)
          = accN (Aarr m c) (Parr m c) (1280 * (n / 8) + p.val) q (n % 8) := ih (Nat.lt_of_succ_lt hn) p q
      have hscr : (outsAt0 m c (n + 1) hn).2
          = k0_pay2 (ablk m c ⟨n + 1, hn⟩) (pblk m c ⟨n + 1, hn⟩) (outsAt0 m c (n + 1 - 1) (Nat.lt_of_le_of_lt (Nat.sub_le _ _) hn)).2 := by
        by_cases h1 : (n + 1) % 8 = 7
        · exact scr_C m c ⟨n + 1, hn⟩ h0 h1
        · exact scr_B m c ⟨n + 1, hn⟩ h0 h1
      refine (congrFun hscr (ix2 p q)).trans ?_
      refine (pay2_apply (ablk m c ⟨n + 1, hn⟩) (pblk m c ⟨n + 1, hn⟩) _ p q).trans ?_
      refine (congrArg₂ (· + ·) hprev (tile_eq m c ⟨n + 1, hn⟩ p q)).trans ?_
      exact hstep.symm

end Cert.Gin.KVal

end
-- ==== Proof.KernelValue.lean ====
/-
  The kernel's result array.

  Only the last column tile of each row tile writes the output block back, and then the block holds, at (p, q), the sum
  over the 256 features j of (c * own (R, j) + the whole running sum of row R at column j) * weight (j, q), R the row
  1280 (t / 8) + p of the padded arrays. The eight row tiles' blocks tile the [10240, 256] output array, so after the
  run it is that one function of the four arrays the region read, entry by entry; the program's last operation keeps
  its first 10000 rows.
-/
import proofs.«417977_j15444702396461_1_alg».proof.Proof.KernelAcc
import Idealize.ShloMosaic.Lib.StableHlo.Run

set_option maxRecDepth 16384
set_option Elab.async false

noncomputable section

open Idealize.ShloMosaic Idealize.ShloMosaic.TcCoe Idealize.SL.Sem Idealize.ShloMosaic.ValueIdx
open Idealize.ShloMosaic.Pipeline (Dat)
open scoped BigOperators

namespace Cert.Gin.KVal

open Cert.KernelIdeal Cert.KernelIdeal.Gen

variable (m : (ℓ : Loc nD τ sig) → Buf (Elt Ideal) ℓ) (ρ : Dev nD → PrngReg)

/-- The output array after the run, as one function of the four arrays the region reads. -/
def Kout (c : Dev nD) : Vec Ideal S10240x256 .f32 := fun i =>
  ∑ j : Fin 256, (Ideal.ofBits .f32 0x3F8CCCCD#32 * (Oarr m c (ix2 (i 0) j) : EReal)
    + accN (Aarr m c) (Parr m c) (i 0).val j 7) * (Warr m c (ix2 j (i 1)) : EReal)

/-- The output's block index at point t is (t / 8, 0) — decided over the 64 points. -/
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- What a last-column-tile point leaves in the output block at (p, q) is the output function at row
    1280 (t / 8) + p. -/
theorem out_entry (c : Dev nD) (t : Fin cfg0.N) (h0 : ¬t.val % 8 = 0) (h1 : t.val % 8 = 7)
    (p : Fin 1280) (q : Fin 256) (R : Fin 10240) (hR : R.val = 1280 * (t.val / 8) + p.val) :
    ((outsAt0 m c t.val t.isLt).1 (ix2 p q) : EReal) = Kout m c (ix2 R q) := by
  refine (congrFun (outb_C m c t h0 h1) (ix2 p q)).trans ?_
  refine (pay3_apply (oblk m c t) (outsAt0 m c t.val t.isLt).2 (wblk m c t) p q).trans ?_
  unfold Kout
  refine Finset.sum_congr rfl (fun j _ => ?_)
  have e1 : (oblk m c t (ix2 p j) : EReal) = Oarr m c (ix2 R j) := oblk_apply m c t p j R hR
  have e2 : ((outsAt0 m c t.val t.isLt).2 (ix2 p j) : EReal) = accN (Aarr m c) (Parr m c) R.val j 7 := by
    rw [scratch_eq m c t.val t.isLt p j, h1, hR]
  have e3 : (wblk m c t (ix2 j q) : EReal) = Warr m c (ix2 j q) := wblk_apply m c t j q
  rw [e1, e2, e3]

/-- A write-back of block contents X whose entries are the matching entries of an array G writes its block of G. -/
theorem flushed_of (c : Dev nD) (t : Fin cfg0.N) (X : Vec Ideal S1280x256 .f32) (G : Vec Ideal S10240x256 .f32)
    (hX : (dats m 0 c).after 4 t = X)
    (hG : ∀ (p : Fin 1280) (q : Fin 256) (R : Fin 10240), R.val = 1280 * (t.val / 8) + p.val →
      (X (ix2 p q) : EReal) = G (ix2 R q)) :
    (dats m 0 c).flushed 4 t = ((cfg0.win 4).blk t).view.read (Elt Ideal) G := by
  have hN : t.val < 64 := lt_of_lt_of_eq t.isLt (show cfg0.N = 64 from N_0)
  show (cfg0.win 4).cut (grid0.coords t) ((dats m 0 c).after 4 t) = _
  rw [hX]
  funext j
  have hp : (j 0).val < 1280 := (j 0).isLt
  have hq : (j 1).val < 256 := (j 1).isLt
  show X ((cfg0.win 4).xinj (grid0.coords t) j) = G (((cfg0.win 4).blk t).view.emb j)
  have e1 : (cfg0.win 4).xinj (grid0.coords t) j = ix2 (⟨(j 0).val, hp⟩ : Fin 1280) (⟨(j 1).val, hq⟩ : Fin 256) :=
    funext fun a => match a with | ⟨0, _⟩ => rfl | ⟨1, _⟩ => rfl
  have e2 : ((cfg0.win 4).blk t).view.emb j
      = ix2 (⟨1280 * (t.val / 8) + (j 0).val, by omega⟩ : Fin 10240) (⟨(j 1).val, hq⟩ : Fin 256) := by
    funext a
    apply Fin.ext
    match a with
    | ⟨0, _⟩ =>
      show win0_4.index t 0 * 1280 + 1 * (j 0).val = 1280 * (t.val / 8) + (j 0).val
      rw [(idx4 t).1]; omega
    | ⟨1, _⟩ =>
      show win0_4.index t 1 * 256 + 1 * (j 1).val = (j 1).val
      rw [(idx4 t).2]; omega
  rw [e1, e2]
  exact hG ⟨(j 0).val, hp⟩ ⟨(j 1).val, hq⟩ ⟨1280 * (t.val / 8) + (j 0).val, by omega⟩ rfl

/-- WHAT A WRITE-BACK WRITES is its block of the output function. -/
theorem flushed_eq (c : Dev nD) (t : Fin cfg0.N) (hf : (cfg0.win 4).flush t = true) :
    (dats m 0 c).flushed 4 t = ((cfg0.win 4).blk t).view.read (Elt Ideal) (Kout m c) := by
  have h1 : t.val % 8 = 7 := (flush0_4 t).mp hf
  have h0 : ¬t.val % 8 = 0 := by omega
  exact flushed_of m c t (outsAt0 m c t.val t.isLt).1 (Kout m c) (after0_4 m c t)
    (fun p q R hR => out_entry m c t h0 h1 p q R hR)

/-- An index of the output array is in point t's block iff each coordinate is in the block's range on its axis. -/
theorem mem_blk (t : Fin cfg0.N) (i : S10240x256.Idx) :
    i ∈ ((cfg0.win 4).blk t).view.set ↔ ∀ a : Fin 2, win0_4.index t a * S1280x256.size a ≤ (i a).val
      ∧ (i a).val < win0_4.index t a * S1280x256.size a + S1280x256.size a := by
  show i ∈ ((View.whole main_v19).slice (win0_4.rect t)).set ↔ _
  rw [View.set_slice_whole, Rect.mem_set_unit]
  exact Iff.rfl

/-- Every entry of the output array is in the block of the last column tile of its row tile. -/
theorem cover (i : S10240x256.Idx) :
    ∃ t : Fin cfg0.N, (cfg0.win 4).flush t = true ∧ i ∈ ((cfg0.win 4).blk t).view.set := by
  have hi0 : (i 0).val < 10240 := (i 0).isLt
  have hi1 : (i 1).val < 256 := (i 1).isLt
  have hN : cfg0.N = 64 := N_0
  have ht : 8 * ((i 0).val / 1280) + 7 < cfg0.N := by omega
  refine ⟨⟨8 * ((i 0).val / 1280) + 7, ht⟩, (flush0_4 _).mpr (by show (8 * ((i 0).val / 1280) + 7) % 8 = 7; omega), ?_⟩
  rw [mem_blk]
  intro a
  match a with
  | ⟨0, _⟩ =>
    show win0_4.index ⟨8 * ((i 0).val / 1280) + 7, ht⟩ 0 * 1280 ≤ (i 0).val
      ∧ (i 0).val < win0_4.index ⟨8 * ((i 0).val / 1280) + 7, ht⟩ 0 * 1280 + 1280
    rw [(idx4 ⟨8 * ((i 0).val / 1280) + 7, ht⟩).1]
    show (8 * ((i 0).val / 1280) + 7) / 8 * 1280 ≤ (i 0).val ∧ (i 0).val < (8 * ((i 0).val / 1280) + 7) / 8 * 1280 + 1280
    omega
  | ⟨1, _⟩ =>
    show win0_4.index ⟨8 * ((i 0).val / 1280) + 7, ht⟩ 1 * 256 ≤ (i 1).val
      ∧ (i 1).val < win0_4.index ⟨8 * ((i 0).val / 1280) + 7, ht⟩ 1 * 256 + 256
    rw [(idx4 ⟨8 * ((i 0).val / 1280) + 7, ht⟩).2]
    omega

/-- THE OUTPUT ARRAY after the run is the output function. -/
theorem final (c : Dev nD) : (dats m 0 c).arrAt 4 cfg0.N = Kout m c :=
  (dats m 0 c).arrAt_eq_of_cover 4 (Kout m c) (flushed_eq m c) cover

/-- The program's result: the first 10000 rows of the output function. -/
def Kres (c : Dev nD) : Vec Ideal S10000x256 .f32 :=
  extractStridedSlice S10000x256 ![0, 0] (Kout m c) slices_S10240x256_S10000x256_0_0

/-- The one operation after the region slices the output array. -/
theorem tail_eq (c : Dev nD) :
    Pipeline.afterTail₀ cfgs (dats m) 0 (V0 m) [hostOps1] c main_v20 = Kres m c := by
  unfold Pipeline.afterTail₀
  show StableHlo.after hostOps1 _ (Proc.devRef .tc main_v20) = _
  after_results
  unfold Kres
  refine congrArg (fun X : Vec Ideal S10240x256 .f32 => extractStridedSlice S10000x256 ![0, 0] X slices_S10240x256_S10000x256_0_0) ?_
  exact (Pipeline.withArrays_arr spec0 launch0.win.arr_inj c _ _ 4).trans (final m c)

/-- The run, read: the result at the sliced output function, the arguments unchanged. -/
theorem run : θ_run defs (onTc (τ := τ) (main (F := Ideal))) ⟨m, fun _ => 0, ρ⟩ fun r => ∀ c : Dev nD,
      r.2.mem ((c : Thread nD τ).loc main_v20) = Kres m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Gin.KVal

end
-- ==== Proof.KernelAdj.lean ====
/-
  The dense adjacency matrix the kernel's region reads, entry by entry.

  Before the region the host builds a [10240, 10240] matrix from the edge list: each edge's destination d and
  source s (32-bit words) are folded into one flat position d * 10240 + s, a negative position is replaced by the
  position plus 104857600 (which never happens for node numbers below 10000), a one is added at that position of a
  zero vector of 10240 * 10240 entries for every edge, and the vector is reshaped row-major into the square matrix
  (and its float format changed, which is the identity on exact values). So entry (r, s) of the matrix is the number
  of edges from s to r, as a sum of ones over the edge list.
-/
import proofs.«417977_j15444702396461_1_alg».proof.Proof.Gen.KernelIdeal.Frame
import proofs.«417977_j15444702396461_1_alg».proof.Proof.LibAdjacency
import proofs.«417977_j15444702396461_1_alg».proof.Proof.LibPairHead
import Idealize.ShloMosaic.Lib.StableHlo.Run
import Idealize.ShloMosaic.Lib.Pipeline.Value
import Idealize.ShloMosaic.Lib.IdealHost

noncomputable section

namespace Cert.Gin.KHost

open Idealize.ShloMosaic Idealize.ShloMosaic.TcCoe Idealize.SL.Sem Idealize.ShloMosaic.ValueIdx Cert.KernelIdeal Cert.KernelIdeal.Gen
open scoped BigOperators

/-! ## The host operations' term -/

/-- The flat position word of each edge: destination times 10240 plus source, in 32-bit words. -/
private def posWord (src dst : IVec S320000 32) : IVec S320000 32 :=
  addi (muli dst (broadcastInDim S320000 ![] bcast_S_S320000 (constantI S_ 32 10240#32))) src

/-- A negative position p is replaced by p + 104857600 (negative indices count from the end). -/
private def wrapWord (p : IVec S320000 32) : IVec S320000 32 :=
  select (cmpi .slt p (broadcastInDim S320000 ![] bcast_S_S320000 (constantI S_ 32 0#32)))
    (addi p (broadcastInDim S320000 ![] bcast_S_S320000 (constantI S_ 32 104857600#32))) p

/-- The matrix the host operations build from the two index arrays: ones scattered into a zero vector at the wrapped
    position words, reshaped to a square matrix, its float format changed. -/
private def adjTerm (src dst : IVec S320000 32) : FVec Ideal S10240x10240 .bf16 :=
  truncf (F := Ideal) .bf16 (shapeCast S10240x10240
    (Host.scatterAdd (F := Ideal) scatter_S104857600_S320000x1_S320000_n_0_0_1
      (broadcastInDim S104857600 ![] bcast_S_S104857600 (constant (F := Ideal) S_ .f32 0x00000000#32))
      (broadcastInDim S320000x1 ![0] bcast_S320000_S320000x1_0 (wrapWord (posWord src dst)))
      (broadcastInDim S320000 ![] bcast_S_S320000 (constant (F := Ideal) S_ .f32 0x3F800000#32)))
    shapeCasts_S104857600_S10240x10240) bitsLt_bf16_f32

/-- The dense adjacency array as the region finds it is that matrix of the two input index arrays. -/
private theorem adj_eq (m : (ℓ : Loc nD τ sig) → Buf (Elt Ideal) ℓ) (c : Dev nD) :
    (V m c main_v13 : S10240x10240.Idx → EReal) =
      adjTerm (m ((c : Thread nD τ).loc main_arg1)) (m ((c : Thread nD τ).loc main_arg2)) := by
  show StableHlo.after hostOps0 (fun b => m (c, b)) (Proc.devRef .tc main_v13) = _
  after_results
  rfl

/-! ## The word arithmetic -/

/-- An integer in the signed 32-bit range is its own balanced remainder modulo 2^32. -/
private theorem bmod32 {n : Int} (h₁ : -2 ^ 31 ≤ n) (h₂ : n < 2 ^ 31) : n.bmod (2 ^ 32) = n :=
  Int.bmod_eq_of_le (by omega) (by omega)

/-- With node numbers below 10000 the position word, read signed, is destination * 10240 + source as an integer:
    10000 * 10240 + 10000 is below 2^31, so neither the product nor the sum wraps. -/
private theorem posWord_toInt (src dst : IVec S320000 32) (i : S320000.Idx) (sv dv : Nat)
    (hs : (src i).toInt = (sv : Int)) (hd : (dst i).toInt = (dv : Int)) (hsv : sv < 10000) (hdv : dv < 10000) :
    (posWord src dst i).toInt = (dv : Int) * 10240 + (sv : Int) := by
  show (IntOp.addi (IntOp.muli (dst i) (broadcastInDim S320000 ![] bcast_S_S320000 (constantI S_ 32 10240#32) i)) (src i)).toInt = _
  rw [broadcastInDim_scalar_apply]
  show ((dst i) * 10240#32 + src i).toInt = _
  rw [BitVec.toInt_add, BitVec.toInt_mul, hs, hd, show (10240#32 : BitVec 32).toInt = 10240 from by decide]
  rw [bmod32 (n := (dv : Int) * 10240) (by omega) (by omega), bmod32 (by omega) (by omega)]

/-- Non-negative position words are kept by the wrap. -/
private theorem wrapWord_eq (p : IVec S320000 32) (h : ∀ e : Fin 320000, 0 ≤ (p (ix1 e)).toInt) : wrapWord p = p := by
  refine Cert.Lib.select_wrap_eq _ _ bcast_S_S320000 (fun i => ?_)
  have hi : (p i).toInt = (p (ix1 (i 0))).toInt := congrArg (fun j => (p j).toInt) (eq_ix1 (n := 320000) i)
  rw [hi]
  exact h (i 0)

/-- Two flat positions d * 10240 + a and r * 10240 + b with a, b below 10240 agree exactly when d = r and a = b. -/
private theorem flat_eq_iff (d a r b : Nat) (ha : a < 10240) (hb : b < 10240) :
    (d : Int) * 10240 + (a : Int) = ((r * 10240 + b : Nat) : Int) ↔ d = r ∧ a = b := by
  constructor
  · intro h; omega
  · intro h; omega

/-! ## The layout operations read at an index -/

/-- A vector broadcast to a one-column matrix, read at (e, 0), is the vector at e. -/
private theorem broadcast_col_apply {α : Type} {n : Nat}
    (h : (⟨1, ![n]⟩ : Shape).BroadcastsInDim ⟨2, ![n, 1]⟩ ![0])
    (x : (⟨1, ![n]⟩ : Shape).Idx → α) (e : Fin n) :
    broadcastInDim ⟨2, ![n, 1]⟩ ![0] h x (ix2 e (0 : Fin 1)) = x (ix1 e) := by
  refine broadcastInDim_apply ![0] h x (ix2 e (0 : Fin 1)) (ix1 e) ?_
  intro a
  match a with
  | ⟨0, _⟩ =>
    show e.val = if n = 1 then 0 else e.val
    split
    · have := e.isLt; omega
    · rfl

/-- Entry (r, s) of the row-major reshape of a vector of 10240 * 10240 entries is the vector's entry r * 10240 + s. -/
private theorem reshape_read (X : S104857600.Idx → EReal) (r s : Fin 10240) (hlt : r.val * 10240 + s.val < 104857600) :
    shapeCast S10240x10240 X shapeCasts_S104857600_S10240x10240 (ix2 r s)
      = X (ix1 (⟨r.val * 10240 + s.val, hlt⟩ : Fin 104857600)) :=
  shapeCast_apply X shapeCasts_S104857600_S10240x10240 (ix2 r s) (ix1 (⟨r.val * 10240 + s.val, hlt⟩ : Fin 104857600))
    (by rw [Shape.rowMajor_val_one, Shape.rowMajor_val_two]; rfl)

/-- The accumulating scatter of the program read at an entry of its result: the operand's entry plus the updates whose
    position word reads exactly that entry's number. -/
private theorem scatter_read (X : S104857600.Idx → EReal) (I : IVec S320000x1 32) (U : S320000.Idx → EReal) (k : Fin 104857600) :
    Host.scatterAdd (F := Ideal) (φ := .f32) scatter_S104857600_S320000x1_S320000_n_0_0_1 X I U (ix1 k)
      = X (ix1 k) + ∑ e : Fin 320000, if (I (ix2 e (0 : Fin 1))).toInt = (k.val : Int) then U (ix1 e) else 0 :=
  Cert.Lib.scatterAdd_vec_apply scatter_S104857600_S320000x1_S320000_n_0_0_1_wf X I U k

/-! ## The adjacency read at an entry -/

/-- Entry (r, s) of the matrix built from index arrays whose words are node numbers below 10000 counts the positions
    e with destination r and source s. -/
private theorem adjTerm_apply (src dst : IVec S320000 32) (sIdx dIdx : Fin 320000 → Fin 10000)
    (hs : ∀ e : Fin 320000, (src (ix1 e)).toInt = ((sIdx e).val : Int))
    (hd : ∀ e : Fin 320000, (dst (ix1 e)).toInt = ((dIdx e).val : Int))
    (r s : Fin 10240) :
    adjTerm src dst (ix2 r s)
      = ∑ e : Fin 320000, if (dIdx e).val = r.val ∧ (sIdx e).val = s.val then (1 : EReal) else 0 := by
  have hpos : ∀ e : Fin 320000, (posWord src dst (ix1 e)).toInt = ((dIdx e).val : Int) * 10240 + ((sIdx e).val : Int) :=
    fun e => posWord_toInt src dst (ix1 e) (sIdx e).val (dIdx e).val (hs e) (hd e) (sIdx e).isLt (dIdx e).isLt
  have hwrap : wrapWord (posWord src dst) = posWord src dst :=
    wrapWord_eq _ (fun e => by rw [hpos e]; omega)
  have hlt : r.val * 10240 + s.val < 104857600 := by have := r.isLt; have := s.isLt; omega
  unfold adjTerm
  rw [hwrap, truncf_apply, reshape_read _ r s hlt, scatter_read, broadcastInDim_scalar_apply, constant_apply,
    Ideal.ofBits_zero_f32, zero_add]
  refine Finset.sum_congr rfl (fun e _ => ?_)
  rw [broadcast_col_apply, hpos e, broadcastInDim_scalar_apply, constant_apply, Ideal.ofBits_one_f32]
  exact if_congr (flat_eq_iff _ _ _ _ (by have := (sIdx e).isLt; omega) s.isLt) rfl rfl

/-- ENTRY (r, s) OF THE DENSE ADJACENCY COUNTS THE EDGES FROM s TO r. The matrix is the reshape of a vector of
    10240 * 10240 zeros into which a one was added per edge at position destination * 10240 + source; entry (r, s)
    of the matrix is position r * 10240 + s of the vector, and d * 10240 + s' = r * 10240 + s with s', s < 10240
    exactly when d = r and s' = s. -/
theorem adj_apply (m : (ℓ : Loc nD τ sig) → Buf (Elt Ideal) ℓ) (c : Dev nD)
    (sIdx dIdx : Fin 320000 → Fin 10000)
    (hs : ∀ e : Fin 320000, ((m ((c : Thread nD τ).loc main_arg1) : IVec S320000 32) (ix1 e)).toInt = ((sIdx e).val : Int))
    (hd : ∀ e : Fin 320000, ((m ((c : Thread nD τ).loc main_arg2) : IVec S320000 32) (ix1 e)).toInt = ((dIdx e).val : Int))
    (r s : Fin 10240) :
    (V m c main_v13 : S10240x10240.Idx → EReal) (ix2 r s)
      = ∑ e : Fin 320000, if (dIdx e).val = r.val ∧ (sIdx e).val = s.val then (1 : EReal) else 0 :=
  (congrFun (adj_eq m c) (ix2 r s)).trans
    (adjTerm_apply (m ((c : Thread nD τ).loc main_arg1)) (m ((c : Thread nD τ).loc main_arg2)) sIdx dIdx hs hd r s)

end Cert.Gin.KHost
-- ==== Proof.LibScatterSet.lean ====
/-
  A `stablehlo.scatter` whose body returns the update (a "set"), read at an index.

  The host's scatter is a left fold over the update indices, each replacing the result's element at the index it
  lands on. When no two update indices land on the same element, the result at an element is the update that lands
  there, and the operand's element where none does.
-/
import Idealize.ShloMosaic.PureOps.ShapeOps

namespace Cert.Lib

open Idealize.ShloMosaic

variable {s si u : Shape} {α : Type} {w : Nat}

/-- A left fold over a list whose step at `n` leaves every element other than the one `g n` names, and leaves
    everything where `g n` names none: if no `n` of the list names `i`, the fold keeps the start's element at `i`. -/
private theorem foldl_set_miss {ι β γ : Type} (g : β → Option ι) (step : (ι → γ) → β → ι → γ)
    (hother : ∀ (r : ι → γ) (n : β) (k i' : ι), g n = some k → i' ≠ k → step r n i' = r i')
    (hnone : ∀ (r : ι → γ) (n : β), g n = none → step r n = r) (i : ι) :
    ∀ (l : List β) (r : ι → γ), (∀ n ∈ l, g n ≠ some i) → l.foldl step r i = r i := by
  intro l
  induction l with
  | nil => intro r _; rfl
  | cons n l ih =>
    intro r h
    -- the tail names `i` nowhere, so the fold over it keeps what the head's step left at `i`
    rw [List.foldl_cons, ih (step r n) (fun m hm => h m (List.mem_cons_of_mem _ hm))]
    have hn : g n ≠ some i := h n (List.mem_cons.mpr (Or.inl rfl))
    cases hg : g n with
    | none => rw [hnone r n hg]
    | some k =>
      refine hother r n k i hg ?_
      intro hik
      exact hn (by rw [hg, hik])

/-- The same fold over a list without repetition, in which `n₀` is the one member that names `i`: the fold holds
    `v n₀` at `i`, the value the step at `n₀` writes there (every later step names another element, or none). -/
private theorem foldl_set_hit {ι β γ : Type} (g : β → Option ι) (v : β → γ) (step : (ι → γ) → β → ι → γ)
    (hsame : ∀ (r : ι → γ) (n : β) (k : ι), g n = some k → step r n k = v n)
    (hother : ∀ (r : ι → γ) (n : β) (k i' : ι), g n = some k → i' ≠ k → step r n i' = r i')
    (hnone : ∀ (r : ι → γ) (n : β), g n = none → step r n = r) (i : ι) (n₀ : β) (h₀ : g n₀ = some i) :
    ∀ (l : List β) (r : ι → γ), l.Nodup → n₀ ∈ l → (∀ n ∈ l, g n = some i → n = n₀) →
      l.foldl step r i = v n₀ := by
  intro l
  induction l with
  | nil => intro r _ hmem; exact absurd hmem List.not_mem_nil
  | cons n l ih =>
    intro r hnd hmem huniq
    rw [List.foldl_cons]
    rw [List.nodup_cons] at hnd
    by_cases hn : n = n₀
    · -- the head is `n₀`: it writes `v n₀` at `i`, and no member of the tail names `i` again
      have htail : ∀ m ∈ l, g m ≠ some i := by
        intro m hm hgm
        have hmn : m = n := (huniq m (List.mem_cons_of_mem _ hm) hgm).trans hn.symm
        exact hnd.1 (hmn ▸ hm)
      rw [foldl_set_miss g step hother hnone i l (step r n) htail, hn]
      exact hsame r n₀ i h₀
    · -- the head is another member: `n₀` lies in the tail
      have hmem' : n₀ ∈ l := by
        rcases List.mem_cons.mp hmem with h | h
        · exact absurd h.symm hn
        · exact h
      exact ih (step r n) hnd.2 hmem' (fun m hm => huniq m (List.mem_cons_of_mem _ hm))

/-- Where update index `j` lands on `i`, and landing is injective, the scattered array holds `upd j` at `i`. -/
theorem scatter_set_apply_of_hit (d : ScatterDims s si u) (x : s.Idx → α) (idx : IVec si w) (upd : u.Idx → α)
    (hinj : ∀ (j j' : u.Idx) (i : s.Idx), d.resultIdx? j idx = some i → d.resultIdx? j' idx = some i → j = j')
    (j : u.Idx) (i : s.Idx) (h : d.resultIdx? j idx = some i) :
    Host.scatter d (fun _ b => b) x idx upd i = upd j := by
  unfold Host.scatter
  -- a position and its update index determine each other, so `upd j` is the update at `j`'s position
  have hj : upd (u.rowMajor.symm (u.rowMajor j)) = upd j := by rw [Equiv.symm_apply_apply]
  rw [← hj]
  -- the fold runs over all row-major positions of the update; `j`'s position is the one that names `i`
  exact foldl_set_hit (fun n : Fin u.numel => d.resultIdx? (u.rowMajor.symm n) idx)
    (fun n : Fin u.numel => upd (u.rowMajor.symm n))
    (fun (r : s.Idx → α) (n : Fin u.numel) =>
      match d.resultIdx? (u.rowMajor.symm n) idx with
      | some i => fun i' => if i' = i then (fun _ b => b) (r i) (upd (u.rowMajor.symm n)) else r i'
      | none => r)
    (by intro r n k hg; simp only [hg]; exact if_pos trivial)
    (by intro r n k i' hg hne; simp only [hg]; exact if_neg hne)
    (by intro r n hg; simp only [hg])
    i (u.rowMajor j)
    (by show d.resultIdx? (u.rowMajor.symm (u.rowMajor j)) idx = some i
        rw [Equiv.symm_apply_apply]; exact h)
    (List.finRange u.numel) x (List.nodup_finRange _) (List.mem_finRange _)
    (by
      intro n _ hgn
      -- two positions naming `i` carry the same update index, and positions correspond one to one to indices
      have hj : u.rowMajor.symm n = j := hinj _ _ i hgn h
      rw [← hj, Equiv.apply_symm_apply])

/-- Where no update index lands on `i`, the scattered array keeps the operand's element. -/
theorem scatter_set_apply_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  exact foldl_set_miss (fun n : Fin u.numel => d.resultIdx? (u.rowMajor.symm n) idx)
    (fun (r : s.Idx → α) (n : Fin u.numel) =>
      match d.resultIdx? (u.rowMajor.symm n) idx with
      | some i => fun i' => if i' = i then (fun _ b => b) (r i) (upd (u.rowMajor.symm n)) else r i'
      | none => r)
    (by intro r n k i' hg hne; simp only [hg]; exact if_neg hne)
    (by intro r n hg; simp only [hg])
    i (List.finRange u.numel) x (fun n _ => h _)

end Cert.Lib
-- ==== Proof.KernelPad.lean ====
/-
  The arrays the host prepares for the kernel, read at an entry.

  The node features [10000, 256] are padded with 240 zero rows to [10240, 256]: the program writes the whole feature
  array as one window into a zero array, at the start row a one-word index array holds, and that word is 0. Update
  (r, k) therefore lands on entry (0 + r, k): distinct updates land on distinct entries, every entry of a row below
  10000 receives the feature of the same coordinates, and no update reaches a row from 10000 on, which keeps the
  zero it started with. The padded features and the weight matrix are then converted to a narrower float format; on
  extended reals a change of format is the identity, so the converted arrays are the arrays themselves.
-/
import proofs.«417977_j15444702396461_1_alg».proof.Proof.Gen.KernelIdeal.Frame
import proofs.«417977_j15444702396461_1_alg».proof.Proof.LibScatterSet
import Idealize.ShloMosaic.Lib.StableHlo.Run
import Idealize.ShloMosaic.Lib.ValueIdx
import Idealize.ShloMosaic.Lib.IdealHost
import Idealize.ShloMosaic.PureOps.Ideal.Laws

noncomputable section

namespace Cert.Gin.KHost

open Idealize.ShloMosaic Idealize.ShloMosaic.TcCoe Idealize.SL.Sem Idealize.ShloMosaic.ValueIdx Cert.KernelIdeal Cert.KernelIdeal.Gen

/-! ## Where an update of the padding scatter lands -/

/-- The padding scatter's dimension numbers: operand [10240, 256], one start index (a [1] array, the index vector
    on its only axis, naming the operand's axis 0), updates [10000, 256] with both axes window axes. -/
private abbrev padDims : ScatterDims S10240x256 S1 S10000x256 := scatter_S10240x256_S1_S10000x256_01_n_0_0

/-- On the operand's axis 0 every window starts at the one index word, read signed. -/
private theorem pad_start0 {w : Nat} (j : S10000x256.Idx) (idx : IVec S1 w) :
    padDims.start j idx (0 : Fin 2) = (idx (ix1 (0 : Fin 1))).toInt := by
  unfold ScatterDims.start
  rw [dif_pos (show (0 : Fin 2) ∈ padDims.scatterDimsToOperandDims from List.mem_singleton.mpr rfl)]
  have hsi : padDims.siIdx j ⟨List.idxOf (0 : Fin 2) padDims.scatterDimsToOperandDims,
      List.idxOf_lt_length_iff.2 (List.mem_singleton.mpr rfl)⟩ = ix1 (0 : Fin 1) := by
    funext b; refine Fin.ext ?_
    match b with
    | ⟨0, _⟩ => rfl
  rw [hsi]

/-- The map does not name the operand's axis 1: the window starts at 0 there. -/
private theorem pad_start1 {w : Nat} (j : S10000x256.Idx) (idx : IVec S1 w) :
    padDims.start j idx (1 : Fin 2) = 0 := by
  unfold ScatterDims.start
  rw [dif_neg (show ¬ (1 : Fin 2) ∈ padDims.scatterDimsToOperandDims from
    fun h => absurd (List.mem_singleton.mp h) (by decide : (1 : Fin 2) ≠ 0))]

/-- No operand axis is inserted: the window coordinate on axis 0 is the update's row. -/
private theorem pad_window0 (j : S10000x256.Idx) :
    padDims.window j (0 : Fin 2) = (j (0 : Fin 2)).val := by
  unfold ScatterDims.window
  rw [dif_pos (show (0 : Fin 2) ∈ padDims.sKept by
    simp [ScatterDims.sKept, Shape.kept, padDims, scatter_S10240x256_S1_S10000x256_01_n_0_0])]
  rfl

/-- And on axis 1 it is the update's column. -/
private theorem pad_window1 (j : S10000x256.Idx) :
    padDims.window j (1 : Fin 2) = (j (1 : Fin 2)).val := by
  unfold ScatterDims.window
  rw [dif_pos (show (1 : Fin 2) ∈ padDims.sKept by
    simp [ScatterDims.sKept, Shape.kept, padDims, scatter_S10240x256_S1_S10000x256_01_n_0_0])]
  rfl

/-- With the start word 0, update (r', k') lands on entry (r, k) exactly when r' = r and k' = k. -/
private theorem pad_resultIdx (j : S10000x256.Idx) (idx : IVec S1 32) (h0 : idx (ix1 (0 : Fin 1)) = 0#32)
    (r : Fin 10240) (k : Fin 256) :
    padDims.resultIdx? j idx = some (ix2 r k) ↔ (j (0 : Fin 2)).val = r.val ∧ j (1 : Fin 2) = k := by
  have hz : (0#32 : BitVec 32).toInt = 0 := by decide
  have hs0 := pad_start0 j idx
  have hs1 := pad_start1 j idx
  have hw0 := pad_window0 j
  have hw1 := pad_window1 j
  rw [h0, hz] at hs0
  unfold ScatterDims.resultIdx?
  constructor
  · intro h
    split at h
    · have hf := Option.some.inj h
      have e0 := congrArg Fin.val (congrFun hf (0 : Fin 2))
      have e1 := congrArg Fin.val (congrFun hf (1 : Fin 2))
      change (padDims.start j idx (0 : Fin 2) + ((padDims.window j (0 : Fin 2) : Nat) : Int)).toNat = r.val at e0
      change (padDims.start j idx (1 : Fin 2) + ((padDims.window j (1 : Fin 2) : Nat) : Int)).toNat = k.val at e1
      rw [hs0, hw0] at e0
      rw [hs1, hw1] at e1
      refine ⟨by omega, Fin.ext ?_⟩
      omega
    · exact absurd h (by simp)
  · rintro ⟨hr, hk⟩
    have hc : ∀ a : Fin 2, 0 ≤ padDims.start j idx a + padDims.window j a ∧
        padDims.start j idx a + padDims.window j a < S10240x256.size a := by
      intro a
      match a with
      | ⟨0, _⟩ =>
        show 0 ≤ padDims.start j idx (0 : Fin 2) + padDims.window j (0 : Fin 2) ∧
          padDims.start j idx (0 : Fin 2) + padDims.window j (0 : Fin 2) < (10240 : Int)
        rw [hs0, hw0, hr]
        have := r.isLt
        omega
      | ⟨1, _⟩ =>
        show 0 ≤ padDims.start j idx (1 : Fin 2) + padDims.window j (1 : Fin 2) ∧
          padDims.start j idx (1 : Fin 2) + padDims.window j (1 : Fin 2) < (256 : Int)
        rw [hs1, hw1, hk]
        have := k.isLt
        omega
    rw [dif_pos hc]
    congr 1
    funext a
    refine Fin.ext ?_
    match a with
    | ⟨0, _⟩ =>
      show (padDims.start j idx (0 : Fin 2) + padDims.window j (0 : Fin 2)).toNat = r.val
      rw [hs0, hw0, hr]
      omega
    | ⟨1, _⟩ =>
      show (padDims.start j idx (1 : Fin 2) + padDims.window j (1 : Fin 2)).toNat = k.val
      rw [hs1, hw1, hk]
      omega

/-! ## The padded features -/

/-- The padded array as the host operations compose it: the features scattered as one window into a zero array at
    the row a broadcast 0 names. -/
private theorem pad_term (m : (ℓ : Loc nD τ sig) → Buf (Elt Ideal) ℓ) (c : Dev nD) :
    (V m c main_v16 : S10240x256.Idx → EReal)
      = Host.scatter scatter_S10240x256_S1_S10000x256_01_n_0_0 (fun _ b => b)
          (broadcastInDim S10240x256 ![] bcast_S_S10240x256 (constant (F := Ideal) S_ .f32 0x00000000#32))
          (broadcastInDim S1 ![] bcast_S_S1 (constantI S_ 32 0#32))
          (m ((c : Thread nD τ).loc main_arg0) : S10000x256.Idx → EReal) := by
  show StableHlo.after hostOps0 (fun b => m (c, b)) (Proc.devRef .tc main_v16) = _
  after_results

/-- Entry (r, k) of the padded features: the feature (r, k) for a row below 10000, zero from row 10000 on. -/
theorem pad_apply (m : (ℓ : Loc nD τ sig) → Buf (Elt Ideal) ℓ) (c : Dev nD) (r : Fin 10240) (k : Fin 256) :
    (V m c main_v16 : S10240x256.Idx → EReal) (ix2 r k)
      = if h : r.val < 10000 then (m ((c : Thread nD τ).loc main_arg0) : S10000x256.Idx → EReal) (ix2 (⟨r.val, h⟩ : Fin 10000) k) else (0 : EReal) := by
  rw [pad_term]
  -- the start index array holds the word 0 at its one position
  have h0 : (broadcastInDim S1 ![] bcast_S_S1 (constantI S_ 32 0#32) : IVec S1 32) (ix1 (0 : Fin 1)) = 0#32 := by
    rw [broadcastInDim_scalar_apply]; rfl
  by_cases h : r.val < 10000
  · rw [dif_pos h]
    -- update (r, k) lands on entry (r, k), and two updates landing on one entry have equal coordinates
    refine Cert.Lib.scatter_set_apply_of_hit padDims _ _ _ ?_ (ix2 (⟨r.val, h⟩ : Fin 10000) k) (ix2 r k)
      ((pad_resultIdx _ _ h0 r k).mpr ⟨rfl, rfl⟩)
    intro j j' i hj hj'
    rw [eq_ix2 i] at hj hj'
    have e := (pad_resultIdx j _ h0 (i 0) (i 1)).mp hj
    have e' := (pad_resultIdx j' _ h0 (i 0) (i 1)).mp hj'
    funext a
    match a with
    | ⟨0, _⟩ => exact Fin.ext (e.1.trans e'.1.symm)
    | ⟨1, _⟩ => exact e.2.trans e'.2.symm
  · rw [dif_neg h]
    -- no update reaches a row from 10000 on: the entry keeps the zero it started with
    rw [Cert.Lib.scatter_set_apply_of_miss padDims _ _ _ (ix2 r k)
      (fun j hj => h (((pad_resultIdx j _ h0 r k).mp hj).1 ▸ idx2_lt0 j))]
    rw [broadcastInDim_scalar_apply, constant_apply]
    exact Ideal.ofBits_zero_f32

/-! ## The converted arrays -/

/-- On extended reals the conversion from the 32-bit to the 16-bit format changes no element. -/
private theorem truncf_exact {s : Shape} (a : FVec Ideal s .f32) (h : FTy.bits .bf16 < FTy.bits .f32) :
    (truncf .bf16 a h : s.Idx → EReal) = a := rfl

/-- The padded features converted to the narrower format are the padded features. -/
theorem padb_eq (m : (ℓ : Loc nD τ sig) → Buf (Elt Ideal) ℓ) (c : Dev nD) :
    (V m c main_v17 : S10240x256.Idx → EReal) = (V m c main_v16 : S10240x256.Idx → EReal) := by
  show StableHlo.after hostOps0 (fun b => m (c, b)) (Proc.devRef .tc main_v17)
    = StableHlo.after hostOps0 (fun b => m (c, b)) (Proc.devRef .tc main_v16)
  after_results
  exact truncf_exact _ _

/-- The weight matrix converted to the narrower format is the weight matrix. -/
theorem wb_eq (m : (ℓ : Loc nD τ sig) → Buf (Elt Ideal) ℓ) (c : Dev nD) :
    (V m c main_v18 : S256x256.Idx → EReal) = (m ((c : Thread nD τ).loc main_arg3) : S256x256.Idx → EReal) := by
  show StableHlo.after hostOps0 (fun b => m (c, b)) (Proc.devRef .tc main_v18) = _
  after_results
  exact truncf_exact _ _

end Cert.Gin.KHost

end
-- ==== Proof.Bridge.lean ====
/-
  The kernel's result is the layer of the specification.

  The output function reads four arrays the program builds before the region: the dense count matrix, the padded
  features (twice, once converted to a narrower format, which changes no exact value) and the weights (converted
  likewise). With the count matrix counting the edges and the padded features holding the features on their first
  10000 rows, the whole running sum of a row R < 10000 is the neighbour sum of node R, the node's own padded row is its
  feature row, and so each of the first 10000 rows of the output function is the specification's row.
-/
import proofs.«417977_j15444702396461_1_alg».proof.Proof.KernelValue
import proofs.«417977_j15444702396461_1_alg».proof.Proof.KernelAdj
import proofs.«417977_j15444702396461_1_alg».proof.Proof.KernelPad

set_option maxRecDepth 16384

noncomputable section

open Idealize.ShloMosaic Idealize.ShloMosaic.TcCoe Idealize.SL.Sem Idealize.ShloMosaic.ValueIdx
open scoped BigOperators

namespace Cert.Gin

open Cert.KernelIdeal Cert.KernelIdeal.Gen

variable (m : (ℓ : Loc nD τ sig) → Buf (Elt Ideal) ℓ)

/-- The slice [0:10000, 0:256] of a [10240, 256] array at (r, o) is the array at (r, o). -/
theorem slice_apply (X : Vec Ideal S10240x256 .f32) (r : Fin 10000) (o : Fin 256) (R : Fin 10240) (hR : R.val = r.val) :
    extractStridedSlice S10000x256 ![0, 0] X slices_S10240x256_S10000x256_0_0 (ix2 r o) = X (ix2 R o) := by
  unfold extractStridedSlice
  refine congrArg X ?_
  funext a
  apply Fin.ext
  match a with
  | ⟨0, _⟩ => show 0 + r.val = R.val; omega
  | ⟨1, _⟩ => show 0 + o.val = o.val; omega

/-- THE KERNEL COMPUTES THE LAYER. With the edge list read as positions, the program's result array is G of the
    features, the positions and the weights. -/
theorem kres_eq_G (c : Dev nD) (sIdx dIdx : Fin 320000 → Fin 10000)
    (hs : ∀ e : Fin 320000, ((m ((c : Thread nD τ).loc main_arg1) : IVec S320000 32) (ix1 e)).toInt = ((sIdx e).val : Int))
    (hd : ∀ e : Fin 320000, ((m ((c : Thread nD τ).loc main_arg2) : IVec S320000 32) (ix1 e)).toInt = ((dIdx e).val : Int)) :
    (KVal.Kres m c : S10000x256.Idx → EReal)
      = G (m ((c : Thread nD τ).loc main_arg0) : S10000x256.Idx → EReal) sIdx dIdx
          (m ((c : Thread nD τ).loc main_arg3) : S256x256.Idx → EReal) := by
  funext i
  obtain ⟨r, o, rfl⟩ : ∃ (r : Fin 10000) (o : Fin 256), i = ix2 r o := ⟨i 0, i 1, eq_ix2 i⟩
  have hR : r.val < 10240 := by have := r.isLt; omega
  unfold KVal.Kres
  refine (slice_apply (KVal.Kout m c) r o ⟨r.val, hR⟩ rfl).trans ?_
  unfold KVal.Kout G
  refine Finset.sum_congr rfl (fun j _ => ?_)
  have eO : (KVal.Oarr m c (ix2 (⟨r.val, hR⟩ : Fin 10240) j) : EReal)
      = (m ((c : Thread nD τ).loc main_arg0) : S10000x256.Idx → EReal) (ix2 r j) := by
    refine (KHost.pad_apply m c ⟨r.val, hR⟩ j).trans ?_
    rw [dif_pos r.isLt]
  have eA : accN (KVal.Aarr m c) (KVal.Parr m c) r.val j 7
      = agg (m ((c : Thread nD τ).loc main_arg0) : S10000x256.Idx → EReal) sIdx dIdx r j :=
    accN_eq_agg _ sIdx dIdx (KVal.Aarr m c) (KVal.Parr m c) (KHost.adj_apply m c sIdx dIdx hs hd)
      (fun r' k => (congrFun (KHost.padb_eq m c) (ix2 r' k)).trans (KHost.pad_apply m c r' k)) r j
  have eW : (KVal.Warr m c (ix2 j o) : EReal) = (m ((c : Thread nD τ).loc main_arg3) : S256x256.Idx → EReal) (ix2 j o) :=
    congrFun (KHost.wb_eq m c) (ix2 j o)
  show (Ideal.ofBits .f32 0x3F8CCCCD#32 * (KVal.Oarr m c (ix2 (⟨r.val, hR⟩ : Fin 10240) j) : EReal)
      + accN (KVal.Aarr m c) (KVal.Parr m c) r.val j 7) * (KVal.Warr m c (ix2 j o) : EReal) = _
  rw [eO, eA, eW]
  rfl

end Cert.Gin

end
-- ==== Proof.lean ====
/-
  A graph-isomorphism layer computed through a dense adjacency matrix equals the layer computed edge by edge.

  Both programs take node features [10000, 256], an edge list of 320000 (source, destination) pairs and a weight matrix
  [256, 256], and return ((c * feat + N) · W), N the neighbour sum (row r of N adds up the feature rows of the sources of
  the edges into r) and c the single-precision literal nearest 1.1, the same word in both programs. The reference
  gathers the source rows and scatter-adds them into the destination rows. The kernel first scatters a one per edge into
  a dense 10240 x 10240 count matrix A (entry (r, s): the number of edges from s to r), pads the features with zero rows
  to 10240, and on an 8 x 8 grid forms A · feat by accumulating, over the 8 column tiles of a row tile, the product of a
  1280 x 1280 block of A with a 1280 x 256 block of the padded features; at the last column tile it combines the
  accumulated block with the node's own rows and multiplies by W. The first 10000 rows are the result.

  The two agree over the extended reals for every feature and weight value, finite or not: A's entries are finite sums of
  ones, hence nonnegative, multiplication distributes over a sum of nonnegative terms whatever the other factor, and the
  remaining steps only regroup finite sums. What the claim does need is that the edge list names nodes: each source and
  destination word, read signed, lies in [0, 10000) — outside that range the reference's gather clamps and its scatter
  drops, while the kernel's flat position d * 10240 + s lands elsewhere or wraps. Under it nothing wraps
  (10000 * 10240 + 10000 < 2^31) and a negative-index wrap never fires.

  The pieces: the index ranges read back out of the precondition; the reference's result as the layer; the kernel's host
  prefix (the count matrix, the padded features) read at an entry; the running block after every grid point, by induction
  on the point; the output array, covered by the eight row tiles' blocks; and the identity of the dense route with the
  neighbour sum.
-/
import proofs.«417977_j15444702396461_1_alg».proof.Defs
import proofs.«417977_j15444702396461_1_alg».proof.Proof.Gen.Kernel
import proofs.«417977_j15444702396461_1_alg».proof.Proof.Gen.Kernel.Skeleton
import proofs.«417977_j15444702396461_1_alg».proof.Proof.Gen.Kernel.Launch
import proofs.«417977_j15444702396461_1_alg».proof.Proof.Gen.Kernel.Points
import proofs.«417977_j15444702396461_1_alg».proof.Proof.Gen.Kernel.Frame
import proofs.«417977_j15444702396461_1_alg».proof.Proof.Gen.KernelIdeal
import proofs.«417977_j15444702396461_1_alg».proof.Proof.Gen.KernelIdeal.Skeleton
import proofs.«417977_j15444702396461_1_alg».proof.Proof.Gen.KernelIdeal.Launch
import proofs.«417977_j15444702396461_1_alg».proof.Proof.Gen.KernelIdeal.Points
import proofs.«417977_j15444702396461_1_alg».proof.Proof.Gen.KernelIdeal.Frame
import proofs.«417977_j15444702396461_1_alg».proof.Proof.Gen.ReferenceIdeal
import proofs.«417977_j15444702396461_1_alg».proof.Proof.Gen.ReferenceIdeal.Run
import proofs.«417977_j15444702396461_1_alg».proof.Proof.Gen.ReferenceIdeal.Read
import proofs.«417977_j15444702396461_1_alg».proof.Proof.Gen.Pre_finite_inputs
import proofs.«417977_j15444702396461_1_alg».proof.Proof.PreRanges
import proofs.«417977_j15444702396461_1_alg».proof.Proof.RefValue
import proofs.«417977_j15444702396461_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values, from memories that agree on the arguments and whose edge list names nodes, the kernel's result
    array and the reference's both end at the layer of the features, the edge positions and the weights. -/
theorem algebraic : Cert.algebraic_KernelIdeal_ReferenceIdeal := by
  intro m ρ m' ρ' hpre hagree
  refine ⟨fun c => Cert.Gin.KVal.Kres m c, Cert.Gin.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨hsr, hdr⟩ := Cert.Gin.ranges_of_pre _ _ _ _ (hpre c)
  rw [(hagree c).1, (hagree c).2.1, (hagree c).2.2.1, (hagree c).2.2.2]
  refine (Cert.ReferenceIdeal.Read.val_main_v13_eq _ _ _ _).trans ?_
  refine (Cert.Gin.ref_eq _ _ _ _ (Cert.Gin.nodeOf _ hsr) (Cert.Gin.nodeOf _ hdr)
    (Cert.Gin.nodeOf_spec _ hsr) (Cert.Gin.nodeOf_spec _ hdr)).trans ?_
  exact (Cert.Gin.kres_eq_G m c _ _ (Cert.Gin.nodeOf_spec _ hsr) (Cert.Gin.nodeOf_spec _ hdr)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
